-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x512 : Shape := ⟨2, ![8192, 512]⟩
abbrev S512x256 : Shape := ⟨2, ![512, 256]⟩
abbrev S_ : Shape := ⟨0, ![]⟩
abbrev S8192 : Shape := ⟨1, ![8192]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S512x256 : S_.BroadcastsInDim S512x256 (![] : Fin 0 → Fin S512x256.rank)
  reducesTo_S512x256_S_d0_1 : S512x256.ReducesTo [0, 1] S_
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_

variable [Facts]

def fn_part1 {F : FTy → Type} [FloatOps F] (main_v13 : IVec S_ 1) (main_v14 : FVec F S8192 .f32) (main_v15 : FVec F S8192 .f32) : IVec S_ 1 :=
  let main_v16 : FVec F S8192 .f32 := addf main_v15 main_v14
  let main_cst_6 : FVec F S_ .f32 := constant S_ .f32 0x00000000#32
  let main_v17 : FVec F S8192 .f32 := broadcastInDim S8192 ![] bcast_S_S8192 main_cst_6
  let main_v18 : IVec S8192 1 := cmpf .ogt main_v16 main_v17
  let main_c_7 : IVec S_ 1 := constantI S_ 1 1#1
  let main_v19 : IVec S_ 1 := (fun x v => Host.reduce IntOp.andi x v reducesTo_S8192_S_d0 h_S_) main_v18 main_c_7
  let main_v20 : IVec S_ 1 := andi main_v13 main_v19
  main_v20

def fn {F : FTy → Type} [FloatOps F] (main_arg0 : FVec F S8192x8192 .f32) (main_arg1 : FVec F S8192x512 .f32) (main_arg2 : FVec F S512x256 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_cst_4 : FVec F S_ .f32 := constant S_ .f32 0x00000000#32
  let main_v14 : FVec F S8192 .f32 := (fun x v => Host.reduceAdd x v reducesTo_S8192x8192_S8192_d1 h_S_) main_arg0 main_cst_4
  let main_cst_5 : FVec F S_ .f32 := constant S_ .f32 0x3F800000#32
  let main_v15 : FVec F S8192 .f32 := broadcastInDim S8192 ![] bcast_S_S8192 main_cst_5
  fn_part1 (F := F) main_v13 main_v14 main_v15
-- ==== Kernel.lean ====
abbrev S8192x8192 : Shape := ⟨2, ![8192, 8192]⟩
abbrev S8192x512 : Shape := ⟨2, ![8192, 512]⟩
abbrev S512x256 : Shape := ⟨2, ![512, 256]⟩
abbrev S8192x1 : Shape := ⟨2, ![8192, 1]⟩
abbrev S1024x2048 : Shape := ⟨2, ![1024, 2048]⟩
abbrev S1024x1 : Shape := ⟨2, ![1024, 1]⟩
abbrev S1024 : Shape := ⟨1, ![1024]⟩
abbrev S8192x256 : Shape := ⟨2, ![8192, 256]⟩
abbrev S2048x512 : Shape := ⟨2, ![2048, 512]⟩
abbrev S2048x1 : Shape := ⟨2, ![2048, 1]⟩
abbrev S2048x256 : Shape := ⟨2, ![2048, 256]⟩
abbrev S1024x256 : Shape := ⟨2, ![1024, 256]⟩

abbrev nBuf : Space → Nat
  | .hbm => 6
  | .vmem => 19
  | .smem => 0
  | _ => 0

abbrev bufTy : (tb : Table) → Fin (tcTables nBuf tb) → BufTy
  | .hbm, ⟨0, _⟩ => ⟨S8192x8192, .f32⟩
  | .hbm, ⟨1, _⟩ => ⟨S8192x512, .f32⟩
  | .hbm, ⟨2, _⟩ => ⟨S512x256, .f32⟩
  | .hbm, ⟨3, _⟩ => ⟨S8192x1, .f32⟩
  | .hbm, ⟨4, _⟩ => ⟨S8192x256, .f32⟩
  | .hbm, ⟨5, _⟩ => ⟨S8192x256, .f32⟩
  | .local _ .vmem, ⟨0, _⟩ => ⟨S1024x2048, .f32⟩
  | .local _ .vmem, ⟨1, _⟩ => ⟨S1024x2048, .f32⟩
  | .local _ .vmem, ⟨2, _⟩ => ⟨S1024x1, .f32⟩
  | .local _ .vmem, ⟨3, _⟩ => ⟨S1024x1, .f32⟩
  | .local _ .vmem, ⟨4, _⟩ => ⟨S2048x512, .f32⟩
  | .local _ .vmem, ⟨5, _⟩ => ⟨S2048x512, .f32⟩
  | .local _ .vmem, ⟨6, _⟩ => ⟨S512x256, .f32⟩
  | .local _ .vmem, ⟨7, _⟩ => ⟨S2048x1, .f32⟩
  | .local _ .vmem, ⟨8, _⟩ => ⟨S2048x1, .f32⟩
  | .local _ .vmem, ⟨9, _⟩ => ⟨S2048x256, .f32⟩
  | .local _ .vmem, ⟨10, _⟩ => ⟨S2048x256, .f32⟩
  | .local _ .vmem, ⟨11, _⟩ => ⟨S1024x2048, .f32⟩
  | .local _ .vmem, ⟨12, _⟩ => ⟨S1024x2048, .f32⟩
  | .local _ .vmem, ⟨13, _⟩ => ⟨S2048x256, .f32⟩
  | .local _ .vmem, ⟨14, _⟩ => ⟨S2048x256, .f32⟩
  | .local _ .vmem, ⟨15, _⟩ => ⟨S1024x1, .f32⟩
  | .local _ .vmem, ⟨16, _⟩ => ⟨S1024x1, .f32⟩
  | .local _ .vmem, ⟨17, _⟩ => ⟨S1024x256, .f32⟩
  | .local _ .vmem, ⟨18, _⟩ => ⟨S1024x256, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem3_1 : DmaSem sig := 18

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![8, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1024x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  reduces_S1024x2048_S1024 : S1024x2048.Reduces [1] S1024
  shapeCasts_S1024_S1024x1 : S1024.ShapeCasts S1024x1
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x256 : S2048x1.Broadcasts S2048x256
  inb_S2048x256_S2048x256_0_0 : ∀ a, (![0, 0] : Fin 2 → Nat) a + S2048x256.size a ≤ S2048x256.size a
  h_S2048x256 : 0 < S2048x256.numel
  inb_S1024x256_S1024x256_0_0 : ∀ a, (![0, 0] : Fin 2 → Nat) a + S1024x256.size a ≤ S1024x256.size a
  h_S1024x256 : 0 < S1024x256.numel
  shapeCasts_S2048x256_S2048x256 : S2048x256.ShapeCasts S2048x256
  shapeCasts_S1024x256_S1024x256 : S1024x256.ShapeCasts S1024x256
  broadcasts_S1024x1_S1024x256 : S1024x1.Broadcasts S1024x256
  dot_S2048x512_S512x256_S2048x256_1_0_0_1_n_n_wf : DotDims.WF S2048x512 S512x256 S2048x256 [1] [0] [0] [1] [] []
  dot_S1024x2048_S2048x256_S1024x256_1_0_0_1_n_n_wf : DotDims.WF S1024x2048 S2048x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .f32 = 32 ∨ (Rect.block (s := S8192x8192) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .f32 = 32 ∨ (Rect.block (s := S8192x1) S1024x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S8192x512.size a
  hwx1_0 : ∀ i : grid1.Coords, EltTy.bits .f32 = 32 ∨ (Rect.block (s := S8192x512) S2048x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S512x256.size a
  hwx1_1 : ∀ i : grid1.Coords, EltTy.bits .f32 = 32 ∨ (Rect.block (s := S512x256) S512x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S8192x1.size a
  hwx1_2 : ∀ i : grid1.Coords, EltTy.bits .f32 = 32 ∨ (Rect.block (s := S8192x1) S2048x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x256.size a ≤ S8192x256.size a
  hwx1_3 : ∀ i : grid1.Coords, EltTy.bits .f32 = 32 ∨ (Rect.block (s := S8192x256) S2048x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S8192x8192.size a
  hwx2_0 : ∀ i : grid2.Coords, EltTy.bits .f32 = 32 ∨ (Rect.block (s := S8192x8192) S1024x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x256.size a ≤ S8192x256.size a
  hwx2_1 : ∀ i : grid2.Coords, EltTy.bits .f32 = 32 ∨ (Rect.block (s := S8192x256) S2048x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S8192x1.size a
  hwx2_2 : ∀ i : grid2.Coords, EltTy.bits .f32 = 32 ∨ (Rect.block (s := S8192x1) S1024x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x256.size a ≤ S8192x256.size a
  hwx2_3 : ∀ i : grid2.Coords, EltTy.bits .f32 = 32 ∨ (Rect.block (s := S8192x256) S1024x256.size (cc2_transform_3 i) (hinb2_3 i)).WholeWords (EltTy.packing .f32)

variable [Facts₀]

def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S512x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S2048x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S2048x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v0) S1024x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v2) S1024x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8192x8192 : Shape := ⟨2, ![8192, 8192]⟩
abbrev S8192x512 : Shape := ⟨2, ![8192, 512]⟩
abbrev S512x256 : Shape := ⟨2, ![512, 256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x256 : Shape := ⟨2, ![8192, 256]⟩

abbrev nBuf : Space → Nat
  | .hbm => 17
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x512, .f32⟩
  | .hbm, ⟨2, _⟩ => ⟨S512x256, .f32⟩
  | .hbm, ⟨3, _⟩ => ⟨S_, .f32⟩
  | .hbm, ⟨4, _⟩ => ⟨S8192, .f32⟩
  | .hbm, ⟨5, _⟩ => ⟨S_, .f32⟩
  | .hbm, ⟨6, _⟩ => ⟨S8192, .f32⟩
  | .hbm, ⟨7, _⟩ => ⟨S8192, .f32⟩
  | .hbm, ⟨8, _⟩ => ⟨S8192, .f32⟩
  | .hbm, ⟨9, _⟩ => ⟨S8192x1, .f32⟩
  | .hbm, ⟨10, _⟩ => ⟨S8192x8192, .f32⟩
  | .hbm, ⟨11, _⟩ => ⟨S8192x8192, .f32⟩
  | .hbm, ⟨12, _⟩ => ⟨S1x8192, .f32⟩
  | .hbm, ⟨13, _⟩ => ⟨S8192x8192, .f32⟩
  | .hbm, ⟨14, _⟩ => ⟨S8192x8192, .f32⟩
  | .hbm, ⟨15, _⟩ => ⟨S8192x256, .f32⟩
  | .hbm, ⟨16, _⟩ => ⟨S8192x256, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  dot_S8192x512_S512x256_S8192x256_1_0_0_1_n_n_wf : DotDims.WF S8192x512 S512x256 S8192x256 [1] [0] [0] [1] [] []
  dot_S8192x8192_S8192x256_S8192x256_1_0_0_1_n_n_wf : DotDims.WF S8192x8192 S8192x256 S8192x256 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.Spec.lean ====
/-
  The mathematics both programs compute, as pure functions of the three argument arrays over the extended reals.

  With `d i = (1 + Σ_k A[i,k])^(-1/2)` (the inverse square root of one plus row `i`'s sum):
    * the kernel forms `S[j,o] = (Σ_f X[j,f]·W[f,o]) · d j` and then `(Σ_k A[i,k]·S[k,o]) · d i`;
    * the reference forms `Σ_k ((d i · A[i,k]) · d k) · (Σ_f X[k,f]·W[f,o])`.
  The two differ by moving the factor `d i` across the sum over `k`, which is sound once every term is a real
  number: that needs the inputs finite and every `1 + Σ_k A[i,k]` positive (at `0` the inverse square root is
  `+∞`, below it has no value, and `+∞` does not distribute over a sum of terms of both signs).
-/
import Idealize.ShloMosaic.PureOps.Ideal
import Idealize.ShloMosaic.Lib.ValueIdx

noncomputable section

namespace Cert.GraphConv

open Idealize.ShloMosaic Idealize.ShloMosaic.ValueIdx
open scoped BigOperators

/-- The adjacency matrix's shape, the features', the weight's, a column's, the result's. -/
abbrev SNN : Shape := ⟨2, ![8192, 8192]⟩
abbrev SNI : Shape := ⟨2, ![8192, 512]⟩
abbrev SIO : Shape := ⟨2, ![512, 256]⟩
abbrev SN1 : Shape := ⟨2, ![8192, 1]⟩
abbrev SNO : Shape := ⟨2, ![8192, 256]⟩

/-- The float `1.0` both programs add to a row sum, as its binary word denotes it. -/
abbrev one : EReal := Ideal.ofBits .f32 0x3F800000#32

/-- `(1 + Σ_k A[i,k])^(-1/2)`: the normalising factor of row `i`. -/
def invSqrtDeg (A : SNN.Idx → EReal) (i : Fin 8192) : EReal :=
  Ideal.rsqrt (one + ∑ k : Fin 8192, A (ix2 i k))

/-- The normalising factors as the column `[8192, 1]` the kernel keeps them in. -/
def degColumn (A : SNN.Idx → EReal) : SN1.Idx → EReal := fun j => invSqrtDeg A (j 0)

/-- `(X·W)[j,o]` scaled by row `j`'s entry of a column `d`. -/
def scaledSupport (X : SNI.Idx → EReal) (W : SIO.Idx → EReal) (d : SN1.Idx → EReal) : SNO.Idx → EReal :=
  fun j => (∑ f : Fin 512, X (ix2 (j 0) f) * W (ix2 f (j 1))) * d (ix2 (j 0) 0)

/-- `(A·S)[i,o]` scaled by row `i`'s entry of a column `d`. -/
def aggregate (A : SNN.Idx → EReal) (S : SNO.Idx → EReal) (d : SN1.Idx → EReal) : SNO.Idx → EReal :=
  fun j => (∑ k : Fin 8192, A (ix2 (j 0) k) * S (ix2 k (j 1))) * d (ix2 (j 0) 0)

/-- What the kernel's three stages compose to. -/
def kernelValue (A : SNN.Idx → EReal) (X : SNI.Idx → EReal) (W : SIO.Idx → EReal) : SNO.Idx → EReal :=
  aggregate A (scaledSupport X W (degColumn A)) (degColumn A)

/-- What the reference computes: the normalised adjacency `(d i · A[i,k]) · d k` times `X·W`. -/
def referenceValue (A : SNN.Idx → EReal) (X : SNI.Idx → EReal) (W : SIO.Idx → EReal) : SNO.Idx → EReal :=
  fun j => ∑ k : Fin 8192, ((invSqrtDeg A (j 0) * A (ix2 (j 0) k)) * invSqrtDeg A k)
    * (∑ f : Fin 512, X (ix2 k f) * W (ix2 f (j 1)))

end Cert.GraphConv

end
-- ==== Proof.LibBlockSum.lean ====
/-
  A sum over `Fin (B * n)` is the sum, over the `B` consecutive blocks of length `n`, of each block's sum — in any
  commutative additive monoid (the extended reals among them), so no finiteness is asked of the terms.
-/
import Mathlib.Algebra.BigOperators.Fin
import Mathlib.Logic.Equiv.Fin.Basic

namespace Cert.BlockSum

open scoped BigOperators

/-- Position `l` of block `b`, as an index below `N = B * n`. -/
def at' {B n N : ℕ} (hN : N = B * n) (b : Fin B) (l : Fin n) : Fin N :=
  ⟨n * b.val + l.val, by
    have hb := b.isLt; have hl := l.isLt
    calc n * b.val + l.val < n * b.val + n := by omega
      _ = n * (b.val + 1) := (Nat.mul_succ n b.val).symm
      _ ≤ n * B := Nat.mul_le_mul_left _ hb
      _ = N := by rw [hN, Nat.mul_comm]⟩

theorem at'_val {B n N : ℕ} (hN : N = B * n) (b : Fin B) (l : Fin n) : (at' hN b l).val = n * b.val + l.val := rfl

/-- The sum over all `N = B * n` positions, block by block. -/
theorem sum_blocks {M : Type*} [AddCommMonoid M] {B n N : ℕ} (hN : N = B * n) (f : Fin N → M) :
    ∑ k : Fin N, f k = ∑ b : Fin B, ∑ l : Fin n, f (at' hN b l) := by
  subst hN
  rw [← Fintype.sum_prod_type' (f := fun b l => f (at' rfl b l))]
  refine (Fintype.sum_equiv finProdFinEquiv _ _ fun x => ?_).symm
  refine congrArg f (Fin.ext ?_)
  show n * x.1.val + x.2.val = (finProdFinEquiv x).val
  simp [finProdFinEquiv, Nat.add_comm]

end Cert.BlockSum
-- ==== Proof.DegreeRegion.lean ====
/-
  The first stage of the graph convolution: the column of normalising factors.

  The stage walks an 8 × 4 grid of points `t = 4·q + b`. At point `t` it sees block `(q, b)`, of 1024 rows by 2048
  lanes, of the 8192 × 8192 input array `A`, and carries a column of 1024 entries for row block `q`:
    * at `b = 0` the column is reset to zero;
    * at every `b` each entry gains the sum of its row of the block over the 2048 lanes;
    * at `b = 3` each entry `s` becomes `(1 + s)^(-1/2)`, and the column is written to rows `1024·q …` of the result.
  So row `i = 1024·q + r` of the result is `(1 + ((((0 + s₀) + s₁) + s₂) + s₃))^(-1/2)` with
  `s_b = Σ_{l < 2048} A[i, 2048·b + l]`, and over the extended reals (`0 + x = x`; a sum over `4 · 2048` lanes is the sum of
  its four blocks' sums) that is `(1 + Σ_{k < 8192} A[i, k])^(-1/2)`: the specification's `degColumn A`.

  The module reads each control case's stores back as a pure column (`out_A`, `out_B`, `out_C`), reads the three
  pure terms at a row over the extended reals (`pay1_apply`, `pay2_apply`, `pay3_apply`), locates a block's entry in the
  array (`xblk_apply`), chains the four points of a row block (`flush_row`), and opens the result array from the
  blocks written back (`flushed_eq`, `covered`, `final`).
-/
import proofs.«118094_j44229573214372_1_alg».proof.Proof.Gen.KernelIdeal.Frame
import proofs.«118094_j44229573214372_1_alg».proof.Proof.Spec
import proofs.«118094_j44229573214372_1_alg».proof.Proof.LibBlockSum
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section
open Idealize.ShloMosaic Idealize.ShloMosaic.TcCoe Idealize.SL.Sem Idealize.ShloMosaic.ValueIdx
open Idealize.ShloMosaic.Pipeline (Dat)

namespace Cert.KernelIdeal.DegreeRegion
open Cert.KernelIdeal Cert.KernelIdeal.Gen Cert.GraphConv

section AnyF
variable {F : FTy → Type} [FloatOps F]

/-- The two zero offsets of a whole-block access, however they are spelt. -/
theorem hz : (![0, 0] : Fin 2 → Nat) = fun _ => 0 := funext fun a => by fin_cases a <;> rfl

/-- CASE B (a middle lane block): over a running column `xo` the body leaves `xo + (lane sums of x)`:
    its one covering store's payload, whose loads read the whole buffers. -/
theorem out_B (c : Dev nD) (i : grid0.Coords) (a2 : Memref sig .tc .vmem S1024x2048 .f32) (h2 : a2.IsWhole)
    (a3 : Memref sig .tc .vmem S1024x1 .f32) (h3 : a3.IsWhole) (hc0 : ¬cond0_0 i) (hc1 : ¬cond0_1 i)
    (x : Vec F S1024x2048 .f32) (xo : Vec F S1024x1 .f32) :
    out0_B_1 c i a2 h2 a3 h3 hc0 hc1 x xo = k0_pay2 xo x := by
  unfold out0_B_1
  rw [View.read_writes_eq_canon _ _ _ (cover0_B_1 c i a2 h2 a3 h3 hc0 hc1 x xo)]
  unfold kernelRun0_B
  dsimp only
  sl_unfold_words
  rw [View.canon_unit_zero hz]
  simp only [View.readAt_eq_ld, h2.read_unread, h3.read_unread, View.ld_unit_zero (S := S1024x1) hz,
    View.ld_unit_zero (S := S1024x2048) hz]

/-- CASE A (the first lane block): the body stores the zero column, reads it back, and leaves
    `0 + (lane sums of x)`. -/
theorem out_A (c : Dev nD) (i : grid0.Coords) (a2 : Memref sig .tc .vmem S1024x2048 .f32) (h2 : a2.IsWhole)
    (a3 : Memref sig .tc .vmem S1024x1 .f32) (h3 : a3.IsWhole) (hc0 : cond0_0 i) (hc1 : ¬cond0_1 i)
    (x : Vec F S1024x2048 .f32) :
    out0_A_1 c i a2 h2 a3 h3 hc0 hc1 x = k0_pay2 (k0_pay1 (F := F)) x := by
  unfold out0_A_1
  rw [View.read_writes_eq_canon _ _ _ (cover0_A_1 c i a2 h2 a3 h3 hc0 hc1 x)]
  unfold kernelRun0_A
  dsimp only
  sl_unfold_words
  rw [View.canon_cons_unit_zero (S := S1024x1) hz, View.readCov_unit_zero (S := S1024x1) _ hz]
  simp only [View.readAt_eq_ld, h2.read_unread, View.ld_unit_zero (S := S1024x2048) hz]

/-- CASE C (the last lane block): the body adds the block's lane sums to the running column, reads the
    sum back, and leaves the inverse square root of one plus it. -/
theorem out_C (c : Dev nD) (i : grid0.Coords) (a2 : Memref sig .tc .vmem S1024x2048 .f32) (h2 : a2.IsWhole)
    (a3 : Memref sig .tc .vmem S1024x1 .f32) (h3 : a3.IsWhole) (hc0 : ¬cond0_0 i) (hc1 : cond0_1 i)
    (x : Vec F S1024x2048 .f32) (xo : Vec F S1024x1 .f32) :
    out0_C_1 c i a2 h2 a3 h3 hc0 hc1 x xo = k0_pay3 (k0_pay2 xo x) := by
  unfold out0_C_1
  rw [View.read_writes_eq_canon _ _ _ (cover0_C_1 c i a2 h2 a3 h3 hc0 hc1 x xo)]
  unfold kernelRun0_C
  dsimp only
  sl_unfold_words
  rw [View.canon_cons_unit_zero (S := S1024x1) hz, View.readCov_unit_zero (S := S1024x1) _ hz]
  simp only [View.readAt_eq_ld, h2.read_unread, h3.read_unread, View.ld_unit_zero (S := S1024x1) hz,
    View.ld_unit_zero (S := S1024x2048) hz]

end AnyF

section AtIdeal

/-- A vector cast to a column reads, at row `i` (whatever the unit coordinate), the vector at `i`: both sit at
    row-major position `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The reset column is zero everywhere. -/
theorem pay1_apply (j : S1024x1.Idx) : k0_pay1 (F := Ideal) j = 0 := by
  unfold k0_pay1
  exact Ideal.ofBits_zero_f32

/-- The update at row `r`: the running entry plus the sum of the block's row `r` over its 2048 lanes. -/
theorem pay2_apply (xo : Vec Ideal S1024x1 .f32) (x : Vec Ideal S1024x2048 .f32) (r : Fin 1024) (u : Fin 1) :
    k0_pay2 (F := Ideal) xo x (ix2 r u) = xo (ix2 r u) + ∑ l : Fin 2048, x (ix2 r l) := by
  unfold k0_pay2
  refine (addf_apply _ _ _).trans ?_
  refine congrArg₂ (· + ·) ?_ ?_
  · exact congrFun (shapeCast_self xo _) _
  · refine (shapeCast_a_a1_apply _ _ r u).trans ?_
    refine (Ideal.multiReduction_add_single x 0x00000000#32 reduces_S1024x2048_S1024 (.inl rfl) rfl (ix1 r)).trans ?_
    refine Finset.sum_congr rfl fun l _ => congrArg x ?_
    funext a
    match a with
    | ⟨0, _⟩ => exact Fin.ext rfl
    | ⟨1, _⟩ => exact Fin.ext rfl

/-- The closing step at an index: the inverse square root of one plus the entry. -/
theorem pay3_apply (v : Vec Ideal S1024x1 .f32) (j : S1024x1.Idx) :
    k0_pay3 (F := Ideal) v j = Ideal.rsqrt (one + v j) := by
  unfold k0_pay3
  show Ideal.rsqrt (one + shapeCast S1024x1 v shapeCasts_S1024x1_S1024x1 j) = _
  rw [shapeCast_self]

end AtIdeal

section Region
-- the region's entry contents: a PARAMETER, exactly as in the generated frame's `section Regions`
variable (V : (c : Dev nD) → (b : Ref sig .tc) → Buf (Elt Ideal) ((c : Thread nD τ).loc b))

/-- The region's input array, at its literal shape. -/
abbrev arrA (c : Dev nD) : SNN.Idx → EReal := V c main_arg0

/-- The input block at point `t`, at its literal shape. -/
abbrev xblk (c : Dev nD) (t : Fin cfg0.N) : Vec Ideal S1024x2048 .f32 := iblk0 V c 0 t

/-- The two windows' block indices at point `t = 4·q + b`: the input's is `(q, b)`, the output's `(q, 0)` —
    decided over the 32 points. -/
theorem idx_facts : ∀ t : Fin cfg0.N,
    win0_0.index t (0 : Fin 2) = t.val / 4 ∧ win0_0.index t (1 : Fin 2) = t.val % 4
    ∧ win0_1.index t (0 : Fin 2) = t.val / 4 ∧ win0_1.index t (1 : Fin 2) = 0 :=
  (by decide +kernel : ∀ t : Fin grid0.N, _)

/-- Entry `(r, l)` of the input block at point `t = 4·q + b` is entry `(1024·q + r, 2048·b + l)` of the array. -/
theorem xblk_apply (c : Dev nD) (t : Fin cfg0.N) (r : Fin 1024) (l : Fin 2048) (i k : Fin 8192)
    (hi : i.val = 1024 * (t.val / 4) + r.val) (hk : k.val = 2048 * (t.val % 4) + l.val) :
    xblk V c t (ix2 r l) = arrA V c (ix2 i k) := by
  obtain ⟨e0, e1, -, -⟩ := idx_facts t
  show iblk0 V c 0 t (ix2 r l) = _
  unfold iblk0
  rw [View.read_apply]
  show V c main_arg0 (((cfg0.win 0).blk t).view.emb (ix2 r l)) = V c main_arg0 (ix2 i k)
  congr 1
  funext a; apply Fin.ext
  match a with
  | ⟨0, _⟩ => show win0_0.index t (0 : Fin 2) * 1024 + 1 * r.val = i.val; omega
  | ⟨1, _⟩ => show win0_0.index t (1 : Fin 2) * 2048 + 1 * l.val = k.val; omega

/-- 8192 lanes are four consecutive blocks of 2048. -/
theorem h8 : 8192 = 4 * 2048 := by norm_num

/-- Row `r` of the input block at a point whose lane-block coordinate is `b`, summed over its lanes, is row
    `1024·q + r` of the array summed over lane block `b`. -/
theorem lane_sum (c : Dev nD) (t : Fin cfg0.N) (b : Fin 4) (hb : t.val % 4 = b.val) (r : Fin 1024) (i : Fin 8192)
    (hi : i.val = 1024 * (t.val / 4) + r.val) :
    ∑ l : Fin 2048, xblk V c t (ix2 r l) = ∑ l : Fin 2048, arrA V c (ix2 i (Cert.BlockSum.at' h8 b l)) :=
  Finset.sum_congr rfl fun l _ => xblk_apply V c t r l i _ hi (by rw [Cert.BlockSum.at'_val, hb])

/-- The column after a point of the first lane block: zero plus the block's lane sums. -/
theorem step_A (c : Dev nD) (n : ℕ) (hn : n < cfg0.N) (h0 : n % 4 = 0) :
    outsAt0 V c n hn = k0_pay2 (k0_pay1 (F := Ideal)) (xblk V c ⟨n, hn⟩) :=
  (outsAt0_A V c ⟨n, hn⟩ h0 (by dsimp only; omega)).trans
    (out_A c (grid0.coords ⟨n, hn⟩) (ms0_0 ⟨n, hn⟩) (hs0_0 ⟨n, hn⟩) (ms0_1 ⟨n, hn⟩) (hs0_1 ⟨n, hn⟩) _ _ (xblk V c ⟨n, hn⟩))

/-- The column after a point of a middle lane block: the column before plus the block's lane sums. -/
theorem step_B (c : Dev nD) (n : ℕ) (hn : n + 1 < cfg0.N) (h0 : ¬(n + 1) % 4 = 0) (h1 : ¬(n + 1) % 4 = 3) :
    outsAt0 V c (n + 1) hn = k0_pay2 (outsAt0 V c n (Nat.lt_of_succ_lt hn)) (xblk V c ⟨n + 1, hn⟩) :=
  (outsAt0_B V c ⟨n + 1, hn⟩ h0 h1).trans
    (out_B c (grid0.coords ⟨n + 1, hn⟩) (ms0_0 ⟨n + 1, hn⟩) (hs0_0 ⟨n + 1, hn⟩) (ms0_1 ⟨n + 1, hn⟩) (hs0_1 ⟨n + 1, hn⟩) _ _
      (xblk V c ⟨n + 1, hn⟩) (outsAt0 V c n (Nat.lt_of_succ_lt hn)))

/-- The column after a point of the last lane block: the inverse square root of one plus (the column before
    plus the block's lane sums). -/
theorem step_C (c : Dev nD) (n : ℕ) (hn : n + 1 < cfg0.N) (h0 : ¬(n + 1) % 4 = 0) (h1 : (n + 1) % 4 = 3) :
    outsAt0 V c (n + 1) hn = k0_pay3 (k0_pay2 (outsAt0 V c n (Nat.lt_of_succ_lt hn)) (xblk V c ⟨n + 1, hn⟩)) :=
  (outsAt0_C V c ⟨n + 1, hn⟩ h0 h1).trans
    (out_C c (grid0.coords ⟨n + 1, hn⟩) (ms0_0 ⟨n + 1, hn⟩) (hs0_0 ⟨n + 1, hn⟩) (ms0_1 ⟨n + 1, hn⟩) (hs0_1 ⟨n + 1, hn⟩) _ _
      (xblk V c ⟨n + 1, hn⟩) (outsAt0 V c n (Nat.lt_of_succ_lt hn)))

end Region

section Assembly
variable (V : (c : Dev nD) → (b : Ref sig .tc) → Buf (Elt Ideal) ((c : Thread nD τ).loc b))

/-- Over the extended reals the ordered chain `(((0 + s₀) + s₁) + s₂) + s₃` of a row's four lane-block sums is the
    row's whole sum: `0 + x = x`, and a sum over `4 · 2048` lanes is the sum of its four blocks' sums. -/
theorem sum_lanes (A : SNN.Idx → EReal) (i : Fin 8192) :
    (((0 + ∑ l : Fin 2048, A (ix2 i (Cert.BlockSum.at' h8 0 l))) + ∑ l : Fin 2048, A (ix2 i (Cert.BlockSum.at' h8 1 l)))
        + ∑ l : Fin 2048, A (ix2 i (Cert.BlockSum.at' h8 2 l))) + ∑ l : Fin 2048, A (ix2 i (Cert.BlockSum.at' h8 3 l))
      = ∑ k : Fin 8192, A (ix2 i k) := by
  rw [Cert.BlockSum.sum_blocks h8 (fun k => A (ix2 i k)), Fin.sum_univ_four, zero_add]

/-- At the last point `n + 3` of a row block's four (`n` a multiple of 4), row `r` of the column is the inverse
    square root of one plus the whole sum of row `1024·(n/4) + r` of the array: the four steps, each read at the row. -/
theorem flush_row (c : Dev nD) (n : ℕ) (hn : n + 3 < cfg0.N) (h4 : n % 4 = 0) (r : Fin 1024) (u : Fin 1) (i : Fin 8192)
    (hi : i.val = 1024 * (n / 4) + r.val) :
    outsAt0 V c (n + 3) hn (ix2 r u) = Ideal.rsqrt (one + ∑ k : Fin 8192, arrA V c (ix2 i k)) := by
  have hN : n + 3 < 32 := lt_of_lt_of_eq hn (show cfg0.N = 32 from N_0)
  have h2 : n + 2 < cfg0.N := Nat.lt_of_succ_lt hn
  have h1 : n + 1 < cfg0.N := Nat.lt_of_succ_lt h2
  have h0 : n < cfg0.N := Nat.lt_of_succ_lt h1
  refine (congrFun (step_C V c (n + 2) hn (by omega) (by omega)) (ix2 r u)).trans ?_
  refine (pay3_apply _ _).trans (congrArg (fun z => Ideal.rsqrt (one + z)) ?_)
  refine (pay2_apply _ _ r u).trans ?_
  rw [lane_sum V c ⟨n + 3, hn⟩ 3 (by show (n + 3) % 4 = 3; omega) r i (by show i.val = 1024 * ((n + 3) / 4) + r.val; omega)]
  refine Eq.trans ?_ (sum_lanes (arrA V c) i)
  refine congrArg (· + _) ?_
  refine (congrFun (step_B V c (n + 1) h2 (by omega) (by omega)) (ix2 r u)).trans ?_
  refine (pay2_apply _ _ r u).trans ?_
  rw [lane_sum V c ⟨n + 2, h2⟩ 2 (by show (n + 2) % 4 = 2; omega) r i (by show i.val = 1024 * ((n + 2) / 4) + r.val; omega)]
  refine congrArg (· + _) ?_
  refine (congrFun (step_B V c n h1 (by omega) (by omega)) (ix2 r u)).trans ?_
  refine (pay2_apply _ _ r u).trans ?_
  rw [lane_sum V c ⟨n + 1, h1⟩ 1 (by show (n + 1) % 4 = 1; omega) r i (by show i.val = 1024 * ((n + 1) / 4) + r.val; omega)]
  refine congrArg (· + _) ?_
  refine (congrFun (step_A V c n h0 h4) (ix2 r u)).trans ?_
  refine (pay2_apply _ _ r u).trans ?_
  rw [lane_sum V c ⟨n, h0⟩ 0 (by show n % 4 = 0; omega) r i (by show i.val = 1024 * (n / 4) + r.val; omega), pay1_apply]

/-- WHAT A FLUSHING POINT WRITES BACK is its block of the column of normalising factors. -/
theorem flushed_eq (c : Dev nD) (t : Fin cfg0.N) (hf : (cfg0.win 1).flush t = true) :
    (dat0 V c).flushed 1 t = ((cfg0.win 1).blk t).view.read (Elt Ideal) (degColumn (arrA V c)) := by
  obtain ⟨v, hv⟩ := t
  have ht : v % 4 = 3 := (flush0_1 ⟨v, hv⟩).mp hf
  have hN : v < 32 := lt_of_lt_of_eq hv (show cfg0.N = 32 from N_0)
  obtain ⟨n, rfl⟩ : ∃ n, v = n + 3 := ⟨v - 3, by omega⟩
  obtain ⟨-, -, e2, e3⟩ := idx_facts ⟨n + 3, hv⟩
  show (cfg0.win 1).cut (grid0.coords ⟨n + 3, hv⟩) ((dat0 V c).after 1 ⟨n + 3, hv⟩) = _
  rw [after0_1]
  funext y
  obtain ⟨r, u, rfl⟩ : ∃ (r : Fin 1024) (u : Fin 1), y = ix2 r u := ⟨y 0, y 1, eq_ix2 y⟩
  have e2' : win0_1.index ⟨n + 3, hv⟩ (0 : Fin 2) = (n + 3) / 4 := e2
  show outsAt0 V c (n + 3) hv (ix2 r u) = degColumn (arrA V c) (((cfg0.win 1).blk ⟨n + 3, hv⟩).view.emb (ix2 r u))
  unfold degColumn invSqrtDeg
  exact flush_row V c n hv (by omega) r u _ (by
    show win0_1.index ⟨n + 3, hv⟩ (0 : Fin 2) * 1024 + 1 * r.val = 1024 * (n / 4) + r.val
    omega)

/-- Every row of the column lies in the block some flushing point writes back: row `i` in that of the last point
    of row block `i / 1024`. -/
theorem covered (i : S8192x1.Idx) :
    ∃ t : Fin cfg0.N, (cfg0.win 1).flush t = true ∧ i ∈ ((cfg0.win 1).blk t).view.set := by
  have hi0 : (i 0).val < 8192 := (i 0).isLt
  have hi1 : (i 1).val < 1 := (i 1).isLt
  have hN : cfg0.N = 32 := N_0
  have hlt : 4 * ((i 0).val / 1024) + 3 < cfg0.N := by rw [hN]; omega
  obtain ⟨-, -, e2, e3⟩ := idx_facts ⟨4 * ((i 0).val / 1024) + 3, hlt⟩
  have e2' : win0_1.index ⟨4 * ((i 0).val / 1024) + 3, hlt⟩ (0 : Fin 2) = (4 * ((i 0).val / 1024) + 3) / 4 := e2
  refine ⟨⟨4 * ((i 0).val / 1024) + 3, hlt⟩, (flush0_1 _).mpr (by show (4 * ((i 0).val / 1024) + 3) % 4 = 3; omega), ?_⟩
  show i ∈ ((View.whole main_v0).slice (win0_1.rect ⟨4 * ((i 0).val / 1024) + 3, hlt⟩)).set
  rw [View.set_slice_whole, Rect.mem_set_unit]
  intro a
  match a with
  | ⟨0, _⟩ =>
    show win0_1.index ⟨4 * ((i 0).val / 1024) + 3, hlt⟩ (0 : Fin 2) * 1024 ≤ (i 0).val
      ∧ (i 0).val < win0_1.index ⟨4 * ((i 0).val / 1024) + 3, hlt⟩ (0 : Fin 2) * 1024 + 1024
    omega
  | ⟨1, _⟩ =>
    show win0_1.index ⟨4 * ((i 0).val / 1024) + 3, hlt⟩ (1 : Fin 2) * 1 ≤ (i 1).val
      ∧ (i 1).val < win0_1.index ⟨4 * ((i 0).val / 1024) + 3, hlt⟩ (1 : Fin 2) * 1 + 1
    omega

/-- So the region's result array ends holding the column of normalising factors of its input array. -/
theorem final (c : Dev nD) : (dat0 (F := Ideal) V c).arrAt 1 cfg0.N = degColumn (V c main_arg0) :=
  (dat0 V c).arrAt_eq_of_cover 1 (degColumn (arrA V c)) (flushed_eq V c) covered

end Assembly

end Cert.KernelIdeal.DegreeRegion
end
-- ==== Proof.SupportRegion.lean ====
/-
  The second stage of the kernel, read as mathematics: the array it leaves is the feature matrix times the weight
  matrix, each row scaled by that row's entry of the column it is handed.

  The stage walks the 8192 rows in four blocks of 2048. At block `t` it multiplies rows `2048·t … 2048·t + 2047` of the
  features `X : [8192, 512]` by the whole weight `W : [512, 256]` (a contraction over the 512 features, accumulated from
  zero) and multiplies row `r` of the product by the column's entry at row `r`, repeated along the 256 lanes. Block `t`
  of the result is written to rows `2048·t … 2048·t + 2047`; the four blocks tile the array, so the array ends as
  `(Σ_f X[j,f]·W[f,o]) · d[j,0]` at every `(j, o)`.
-/
import proofs.«118094_j44229573214372_1_alg».proof.Proof.Gen.KernelIdeal.Frame
import proofs.«118094_j44229573214372_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section
open Idealize.ShloMosaic Idealize.ShloMosaic.TcCoe Idealize.SL.Sem Idealize.ShloMosaic.ValueIdx
open Idealize.ShloMosaic.Pipeline (Dat)
namespace Cert.KernelIdeal.SupportRegion
open Cert.KernelIdeal Cert.KernelIdeal.Gen Cert.GraphConv

/-! ## The product of a row block with the weight, at an index -/

/-- The left operand of the contraction at output `(p, q)` and contraction index `k` sits in row `p` … -/
theorem lhs_row (i : S2048x256.Idx) (q : dot_S2048x512_S512x256_S2048x256_1_0_0_1_n_n.contr.Idx) :
    (dot_S2048x512_S512x256_S2048x256_1_0_0_1_n_n.lhsIdx i q 0).val = (i 0).val := by
  unfold DotDims.lhsIdx
  rw [dif_neg (show ¬(0 : Fin S2048x512.rank) ∈ dot_S2048x512_S512x256_S2048x256_1_0_0_1_n_n.lhsBatch by decide), dif_pos (show (0 : Fin S2048x512.rank) ∈ dot_S2048x512_S512x256_S2048x256_1_0_0_1_n_n.lhsNonContracting by decide)]
  rfl
/-- … and column `k`; -/
theorem lhs_col (i : S2048x256.Idx) (q : dot_S2048x512_S512x256_S2048x256_1_0_0_1_n_n.contr.Idx) :
    (dot_S2048x512_S512x256_S2048x256_1_0_0_1_n_n.lhsIdx i q 1).val = (q ⟨0, by decide⟩).val :=
  dot_S2048x512_S512x256_S2048x256_1_0_0_1_n_n.lhsIdx_val_of_single rfl i q
/-- the right operand sits in row `k` … -/
theorem rhs_row (i : S2048x256.Idx) (q : dot_S2048x512_S512x256_S2048x256_1_0_0_1_n_n.contr.Idx) :
    (dot_S2048x512_S512x256_S2048x256_1_0_0_1_n_n.rhsIdx i q 0).val = (q ⟨0, by decide⟩).val :=
  dot_S2048x512_S512x256_S2048x256_1_0_0_1_n_n.rhsIdx_val_of_single rfl i q
/-- … and column `q`. -/
theorem rhs_col (i : S2048x256.Idx) (q : dot_S2048x512_S512x256_S2048x256_1_0_0_1_n_n.contr.Idx) :
    (dot_S2048x512_S512x256_S2048x256_1_0_0_1_n_n.rhsIdx i q 1).val = (i 1).val := by
  unfold DotDims.rhsIdx
  rw [dif_neg (show ¬(1 : Fin S512x256.rank) ∈ dot_S2048x512_S512x256_S2048x256_1_0_0_1_n_n.rhsBatch by decide), dif_pos (show (1 : Fin S512x256.rank) ∈ dot_S2048x512_S512x256_S2048x256_1_0_0_1_n_n.rhsNonContracting by decide)]
  rfl

/-- The product accumulated from zero, at `(p, q)`: the sum over the 512 features of row `p` of the left operand times
    column `q` of the right. -/
theorem matmul_at {φ₁ φ₂ : FTy} (a : FVec Ideal S2048x512 φ₁) (b : FVec Ideal S512x256 φ₂) (p : Fin 2048) (q : Fin 256) :
    matmul dot_S2048x512_S512x256_S2048x256_1_0_0_1_n_n none a b (constant (F := Ideal) S2048x256 .f32 0x00000000#32) (ix2 p q)
      = ∑ k : Fin 512, a (ix2 p k) * b (ix2 k q) := by
  simp only [matmul]
  rw [Ideal.matmul_constant_zero_apply, ← Equiv.sum_comp (contrEquiv1 dot_S2048x512_S512x256_S2048x256_1_0_0_1_n_n 512 rfl rfl).symm]
  refine Finset.sum_congr rfl fun k _ => ?_
  have hk := contrEquiv1_symm_val dot_S2048x512_S512x256_S2048x256_1_0_0_1_n_n 512 rfl rfl k
  have el : dot_S2048x512_S512x256_S2048x256_1_0_0_1_n_n.lhsIdx (ix2 p q) ((contrEquiv1 dot_S2048x512_S512x256_S2048x256_1_0_0_1_n_n 512 rfl rfl).symm k) = ix2 p k := funext fun ax => Fin.ext (by
    match ax with
    | ⟨0, _⟩ => exact lhs_row _ _
    | ⟨1, _⟩ => exact (lhs_col _ _).trans hk)
  have er : dot_S2048x512_S512x256_S2048x256_1_0_0_1_n_n.rhsIdx (ix2 p q) ((contrEquiv1 dot_S2048x512_S512x256_S2048x256_1_0_0_1_n_n 512 rfl rfl).symm k) = ix2 k q := funext fun ax => Fin.ext (by
    match ax with
    | ⟨0, _⟩ => exact (rhs_row _ _).trans hk
    | ⟨1, _⟩ => exact rhs_col _ _)
  rw [el, er]

/-! ## The column repeated along the lanes -/

/-- A `[2048, 1]` column broadcast to `[2048, 256]` reads, at `(p, q)`, the column's entry of row `p`. -/
theorem column_at {α : Type} (v : S2048x1.Idx → α) (h : S2048x1.Broadcasts S2048x256) (p : Fin 2048) (q : Fin 256) :
    broadcastTo S2048x256 v h (ix2 p q) = v (ix2 p (0 : Fin 1)) := by
  refine broadcastTo_apply v h (ix2 p q) (ix2 p (0 : Fin 1)) fun ax => ?_
  match ax with
  | ⟨0, _⟩ => show p.val = if (2048 : Nat) = 1 then 0 else p.val; rw [if_neg (by decide)]
  | ⟨1, _⟩ => show 0 = if (1 : Nat) = 1 then 0 else q.val; rw [if_pos rfl]

/-! ## What the body stores, at an index -/

/-- The stored block at `(p, q)`: the row-block product there times the column's entry of row `p` (the narrowing of
    the operands is the identity on extended reals). -/
theorem stored_at (x0 : Vec Ideal S2048x512 .f32) (x1 : Vec Ideal S512x256 .f32) (x2 : Vec Ideal S2048x1 .f32) (p : Fin 2048) (q : Fin 256) :
    k1_pay1 (F := Ideal) x0 x1 x2 (ix2 p q) = (∑ k : Fin 512, x0 (ix2 p k) * x1 (ix2 k q)) * x2 (ix2 p (0 : Fin 1)) := by
  unfold k1_pay1
  refine (mulf_apply _ _ _).trans ?_
  refine congrArg₂ (· * ·) ?_ ?_
  · exact matmul_at _ _ p q
  · refine (column_at _ _ p q).trans ?_
    rw [shapeCast_self]

/-! ## The blocks the body is handed, as rows of the arrays -/

-- the region's entry contents: every array as the region finds it
variable (V : (c : Dev nD) → (b : Ref sig .tc) → Buf (Elt Ideal) ((c : Thread nD τ).loc b))

/-- The three arrays the stage reads, as the region finds them, at their literal shapes. -/
abbrev features (c : Dev nD) : SNI.Idx → EReal := V c main_arg1
abbrev weight (c : Dev nD) : SIO.Idx → EReal := V c main_arg2
abbrev column (c : Dev nD) : SN1.Idx → EReal := V c main_v0

/-- Where the four windows sit at grid point `t`: the features, the column and the result at row block `t`, column
    block `0`; the weight whole. Decided over the four points. -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- The features' block at point `t` holds rows `2048·t …` of the features. -/
theorem features_block (c : Dev nD) (t : Fin cfg1.N) (y : S2048x512.Idx) (k : S8192x512.Idx)
    (hk0 : (k 0).val = 2048 * t.val + (y 0).val) (hk1 : (k 1).val = (y 1).val) :
    (iblk1 V c 0 t : Vec Ideal S2048x512 .f32) y = features V c k := by
  obtain ⟨e0, e1, -⟩ := block_indices t
  unfold iblk1
  rw [View.read_apply]
  show V c main_arg1 _ = V c main_arg1 _
  refine congrArg (V c main_arg1) (funext fun ax => Fin.ext ?_)
  match ax with
  | ⟨0, _⟩ => show win1_0.index t (0 : Fin 2) * 2048 + 1 * (y 0).val = (k 0).val; rw [e0, hk0]; omega
  | ⟨1, _⟩ => show win1_0.index t (1 : Fin 2) * 512 + 1 * (y 1).val = (k 1).val; rw [e1, hk1]; omega

/-- The weight's block at every point is the weight. -/
theorem weight_block (c : Dev nD) (t : Fin cfg1.N) (y : S512x256.Idx) :
    (iblk1 V c 1 t : Vec Ideal S512x256 .f32) y = weight V c y := by
  obtain ⟨-, -, e0, e1, -⟩ := block_indices t
  unfold iblk1
  rw [View.read_apply]
  show V c main_arg2 _ = V c main_arg2 _
  refine congrArg (V c main_arg2) (funext fun ax => Fin.ext ?_)
  match ax with
  | ⟨0, _⟩ => show win1_1.index t (0 : Fin 2) * 512 + 1 * (y 0).val = (y 0).val; rw [e0]; omega
  | ⟨1, _⟩ => show win1_1.index t (1 : Fin 2) * 256 + 1 * (y 1).val = (y 1).val; rw [e1]; omega

/-- The column's block at point `t` holds rows `2048·t …` of the column. -/
theorem column_block (c : Dev nD) (t : Fin cfg1.N) (y : S2048x1.Idx) (k : S8192x1.Idx)
    (hk0 : (k 0).val = 2048 * t.val + (y 0).val) :
    (iblk1 V c 2 t : Vec Ideal S2048x1 .f32) y = column V c k := by
  obtain ⟨-, -, -, -, e0, e1, -⟩ := block_indices t
  unfold iblk1
  rw [View.read_apply]
  show V c main_v0 _ = V c main_v0 _
  refine congrArg (V c main_v0) (funext fun ax => Fin.ext ?_)
  have hy : (y 1).val < 1 := (y 1).isLt
  have hk : (k 1).val < 1 := (k 1).isLt
  match ax with
  | ⟨0, _⟩ => show win1_2.index t (0 : Fin 2) * 2048 + 1 * (y 0).val = (k 0).val; rw [e0, hk0]; omega
  | ⟨1, _⟩ => show win1_2.index t (1 : Fin 2) * 1 + 1 * (y 1).val = (k 1).val; rw [e1]; omega

/-! ## What a point writes back -/

theorem zero_offsets : (![0, 0] : Fin 2 → Nat) = fun _ => 0 := funext fun a => by fin_cases a <;> rfl

/-- Point `t` writes back block `t` of the scaled product of the arrays as the region finds them: the body's one
    store covers its buffer with the payload of the three blocks it loaded whole, and those blocks are the rows of the
    features and of the column that the result block names, and the weight. -/
theorem written_block (c : Dev nD) (t : Fin cfg1.N) :
    (dat1 (F := Ideal) V c).flushed 3 t
      = ((cfg1.win 3).blk t).view.read (Elt Ideal) (scaledSupport (V c main_arg1) (V c main_arg2) (V c main_v0)) := by
  show (cfg1.win 3).cut (grid1.coords t) ((dat1 V c).after 3 t) = _
  rw [after1_3]
  unfold out1_3
  rw [View.canon_unit_zero zero_offsets]
  simp only [View.ld_unit_zero (S := S2048x512) zero_offsets, View.ld_unit_zero (S := S512x256) zero_offsets,
    View.ld_unit_zero (S := S2048x1) zero_offsets]
  obtain ⟨-, -, -, -, -, -, e0, e1⟩ := block_indices t
  funext j
  obtain ⟨p, q, rfl⟩ : ∃ (p : Fin 2048) (q : Fin 256), j = ix2 p q := ⟨j 0, j 1, eq_ix2 j⟩
  rw [View.read_apply]
  refine (stored_at (iblk1 V c 0 t) (iblk1 V c 1 t) (iblk1 V c 2 t) p q).trans ?_
  have hp : p.val < 2048 := p.isLt
  have hq : q.val < 256 := q.isLt
  have r0 : ((((cfg1.win 3).blk t).view.emb (ix2 p q) : S8192x256.Idx) 0).val = 2048 * t.val + p.val := by
    show win1_3.index t (0 : Fin 2) * 2048 + 1 * p.val = _; rw [e0]; omega
  have r1 : ((((cfg1.win 3).blk t).view.emb (ix2 p q) : S8192x256.Idx) 1).val = q.val := by
    show win1_3.index t (1 : Fin 2) * 256 + 1 * q.val = _; rw [e1]; omega
  show _ = (∑ f : Fin 512, features V c (ix2 _ f) * weight V c (ix2 f _)) * column V c (ix2 _ (0 : Fin 1))
  refine congrArg₂ (· * ·) (Finset.sum_congr rfl fun k _ => congrArg₂ (· * ·) ?_ ?_) ?_
  · exact features_block V c t (ix2 p k) _ r0 rfl
  · refine (weight_block V c t (ix2 k q)).trans (congrArg _ (funext fun ax => Fin.ext ?_))
    match ax with
    | ⟨0, _⟩ => rfl
    | ⟨1, _⟩ => exact r1.symm
  · exact column_block V c t (ix2 p (0 : Fin 1)) _ r0

/-! ## The four blocks tile the array -/

/-- An index of the result is in point `t`'s block iff each coordinate is in the block's range on its axis. -/
theorem mem_block (t : Fin cfg1.N) (i : S8192x256.Idx) :
    i ∈ ((cfg1.win 3).blk t).view.set ↔ ∀ a : Fin 2, win1_3.index t a * S2048x256.size a ≤ (i a).val ∧ (i a).val < win1_3.index t a * S2048x256.size a + S2048x256.size a := by
  show i ∈ ((View.whole main_v1).slice (win1_3.rect t)).set ↔ _
  rw [View.set_slice_whole, Rect.mem_set_unit]
  exact Iff.rfl

/-- Row `r` of the result lies in the block of point `r / 2048`, which is written back. -/
theorem tiled (i : S8192x256.Idx) : ∃ t : Fin cfg1.N, (cfg1.win 3).flush t = true ∧ i ∈ ((cfg1.win 3).blk t).view.set := by
  have hi0 : (i 0).val < 8192 := (i 0).isLt
  have hi1 : (i 1).val < 256 := (i 1).isLt
  have hN : cfg1.N = 4 := N_1
  refine ⟨⟨(i 0).val / 2048, by rw [hN]; omega⟩, flush1_3 _, ?_⟩
  obtain ⟨-, -, -, -, -, -, e0, e1⟩ := block_indices ⟨(i 0).val / 2048, by rw [hN]; omega⟩
  rw [mem_block]
  intro a
  match a with
  | ⟨0, _⟩ => show win1_3.index _ (0 : Fin 2) * 2048 ≤ (i 0).val ∧ (i 0).val < win1_3.index _ (0 : Fin 2) * 2048 + 2048; rw [e0]; show (i 0).val / 2048 * 2048 ≤ (i 0).val ∧ (i 0).val < (i 0).val / 2048 * 2048 + 2048; omega
  | ⟨1, _⟩ => show win1_3.index _ (1 : Fin 2) * 256 ≤ (i 1).val ∧ (i 1).val < win1_3.index _ (1 : Fin 2) * 256 + 256; rw [e1]; omega

/-! ## The array after the stage -/

/-- The result array after the four points: the features times the weight, each row scaled by the column's entry of
    that row, of the arrays as the region finds them. -/
theorem final (c : Dev nD) : (dat1 (F := Ideal) V c).arrAt 3 cfg1.N = scaledSupport (V c main_arg1) (V c main_arg2) (V c main_v0) :=
  (dat1 (F := Ideal) V c).arrAt_eq_of_cover 3 (scaledSupport (V c main_arg1) (V c main_arg2) (V c main_v0))
    (fun t _ => written_block V c t) tiled

end Cert.KernelIdeal.SupportRegion
end
-- ==== Proof.AggregateRegion.lean ====
/-
  The third stage, read off its run: the result array ends holding, at (i, o),
      (Σ_k A[i,k] · S[k,o]) · d[i,0]
  of the three arrays A : [8192, 8192], S : [8192, 256], d : [8192, 1] the stage finds.

  The grid is 8 row blocks × 4 column steps. Row block q carries one [1024, 256] block through its four steps: step 0
  resets it to zero, every step b adds the product of A's block (q, b) with S's block (b, 0), step 3 scales row r by
  d[1024 q + r, 0] and is the only one whose block is written back. So the written-back entry (r, o) is
      ((((0 + m₀) + m₁) + m₂) + m₃) · d[1024 q + r, 0],   m_b = Σ_{l < 2048} A[1024 q + r, 2048 b + l] · S[2048 b + l, o],
  and over the extended reals the bracket is the sum over all 8192 positions, split into its 4 consecutive blocks.
-/
import proofs.«118094_j44229573214372_1_alg».proof.Proof.Gen.KernelIdeal.Frame
import proofs.«118094_j44229573214372_1_alg».proof.Proof.Spec
import proofs.«118094_j44229573214372_1_alg».proof.Proof.LibBlockSum
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section
open Idealize.ShloMosaic Idealize.ShloMosaic.TcCoe Idealize.SL.Sem Idealize.ShloMosaic.ValueIdx
open Idealize.ShloMosaic.Pipeline (Dat)
namespace Cert.KernelIdeal.AggregateRegion
open Cert.KernelIdeal Cert.KernelIdeal.Gen Cert.GraphConv
-- the contents of the arrays when the stage is entered: a parameter, as in the generated frame's section on the regions
variable (V : (c : Dev nD) → (b : Ref sig .tc) → Buf (Elt Ideal) ((c : Thread nD τ).loc b))

variable {F : FTy → Type} [FloatOps F]

/-! ## What each control case leaves in the output's staging block

Every load and store of the body goes through the whole of its staging block (the unit rectangle at zero offsets), so a
case's stores read back as the last store's payload, and a load that follows a store reads that store's payload. -/

theorem hz : (![0, 0] : Fin 2 → Nat) = fun _ => 0 := funext fun a => by fin_cases a <;> rfl

/-- The first column step of a row block (`b = 0`): the block is reset to the zero block, and the first partial product
    is added to it. -/
theorem out_A (c : Dev nD) (i : grid2.Coords) (a2 : Memref sig .tc .vmem S1024x2048 .f32) (h2 : a2.IsWhole)
    (a3 : Memref sig .tc .vmem S2048x256 .f32) (h3 : a3.IsWhole) (a4 : Memref sig .tc .vmem S1024x1 .f32) (h4 : a4.IsWhole)
    (a5 : Memref sig .tc .vmem S1024x256 .f32) (h5 : a5.IsWhole) (hc0 : cond2_0 i) (hc1 : ¬cond2_1 i)
    (x0 : Vec F S1024x2048 .f32) (x1 : Vec F S2048x256 .f32) (x2 : Vec F S1024x1 .f32) :
    out2_A_3 c i a2 h2 a3 h3 a4 h4 a5 h5 hc0 hc1 x0 x1 x2 = k2_pay2 x0 x1 (k2_pay1 (F := F)) := by
  unfold out2_A_3
  rw [View.read_writes_eq_canon _ _ _ (cover2_A_3 c i a2 h2 a3 h3 a4 h4 a5 h5 hc0 hc1 x0 x1 x2)]
  unfold kernelRun2_A
  dsimp only
  sl_unfold_words
  rw [View.canon_cons_unit_zero (S := S1024x256) hz, View.readCov_unit_zero (S := S1024x256) _ hz]
  simp only [View.readAt_eq_ld, h2.read_unread, h3.read_unread, View.ld_unit_zero (S := S1024x2048) hz,
    View.ld_unit_zero (S := S2048x256) hz]

/-- A middle column step (`b = 1, 2`): the partial product is added to what the block held. -/
theorem out_B (c : Dev nD) (i : grid2.Coords) (a2 : Memref sig .tc .vmem S1024x2048 .f32) (h2 : a2.IsWhole)
    (a3 : Memref sig .tc .vmem S2048x256 .f32) (h3 : a3.IsWhole) (a4 : Memref sig .tc .vmem S1024x1 .f32) (h4 : a4.IsWhole)
    (a5 : Memref sig .tc .vmem S1024x256 .f32) (h5 : a5.IsWhole) (hc0 : ¬cond2_0 i) (hc1 : ¬cond2_1 i)
    (x0 : Vec F S1024x2048 .f32) (x1 : Vec F S2048x256 .f32) (x2 : Vec F S1024x1 .f32) (xo : Vec F S1024x256 .f32) :
    out2_B_3 c i a2 h2 a3 h3 a4 h4 a5 h5 hc0 hc1 x0 x1 x2 xo = k2_pay2 x0 x1 xo := by
  unfold out2_B_3
  rw [View.read_writes_eq_canon _ _ _ (cover2_B_3 c i a2 h2 a3 h3 a4 h4 a5 h5 hc0 hc1 x0 x1 x2 xo)]
  unfold kernelRun2_B
  dsimp only
  sl_unfold_words
  rw [View.canon_unit_zero (S := S1024x256) hz]
  simp only [View.readAt_eq_ld, h2.read_unread, h3.read_unread, h5.read_unread, View.ld_unit_zero (S := S1024x2048) hz,
    View.ld_unit_zero (S := S2048x256) hz, View.ld_unit_zero (S := S1024x256) hz]

/-- The last column step (`b = 3`): the partial product is added, then the block is scaled row by row by the column. -/
theorem out_C (c : Dev nD) (i : grid2.Coords) (a2 : Memref sig .tc .vmem S1024x2048 .f32) (h2 : a2.IsWhole)
    (a3 : Memref sig .tc .vmem S2048x256 .f32) (h3 : a3.IsWhole) (a4 : Memref sig .tc .vmem S1024x1 .f32) (h4 : a4.IsWhole)
    (a5 : Memref sig .tc .vmem S1024x256 .f32) (h5 : a5.IsWhole) (hc0 : ¬cond2_0 i) (hc1 : cond2_1 i)
    (x0 : Vec F S1024x2048 .f32) (x1 : Vec F S2048x256 .f32) (x2 : Vec F S1024x1 .f32) (xo : Vec F S1024x256 .f32) :
    out2_C_3 c i a2 h2 a3 h3 a4 h4 a5 h5 hc0 hc1 x0 x1 x2 xo = k2_pay3 (k2_pay2 x0 x1 xo) x2 := by
  unfold out2_C_3
  rw [View.read_writes_eq_canon _ _ _ (cover2_C_3 c i a2 h2 a3 h3 a4 h4 a5 h5 hc0 hc1 x0 x1 x2 xo)]
  unfold kernelRun2_C
  dsimp only
  sl_unfold_words
  rw [View.canon_cons_unit_zero (S := S1024x256) hz, View.readCov_unit_zero (S := S1024x256) _ hz]
  simp only [View.readAt_eq_ld, h2.read_unread, h3.read_unread, h4.read_unread, h5.read_unread,
    View.ld_unit_zero (S := S1024x2048) hz, View.ld_unit_zero (S := S2048x256) hz, View.ld_unit_zero (S := S1024x256) hz,
    View.ld_unit_zero (S := S1024x1) hz]

/-! ## The body's arithmetic at an entry, over the extended reals -/

/-- Where the contraction reads its two operands: the left one at (output row, contracted position), the right one at
    (contracted position, output column). -/
theorem lhs_row (i : S1024x256.Idx) (q : dot_S1024x2048_S2048x256_S1024x256_1_0_0_1_n_n.contr.Idx) :
    (dot_S1024x2048_S2048x256_S1024x256_1_0_0_1_n_n.lhsIdx i q 0).val = (i 0).val := by
  unfold DotDims.lhsIdx
  rw [dif_neg (show ¬(0 : Fin S1024x2048.rank) ∈ dot_S1024x2048_S2048x256_S1024x256_1_0_0_1_n_n.lhsBatch by decide), dif_pos (show (0 : Fin S1024x2048.rank) ∈ dot_S1024x2048_S2048x256_S1024x256_1_0_0_1_n_n.lhsNonContracting by decide)]
  rfl
theorem lhs_pos (i : S1024x256.Idx) (q : dot_S1024x2048_S2048x256_S1024x256_1_0_0_1_n_n.contr.Idx) :
    (dot_S1024x2048_S2048x256_S1024x256_1_0_0_1_n_n.lhsIdx i q 1).val = (q ⟨0, by decide⟩).val :=
  dot_S1024x2048_S2048x256_S1024x256_1_0_0_1_n_n.lhsIdx_val_of_single rfl i q
theorem rhs_pos (i : S1024x256.Idx) (q : dot_S1024x2048_S2048x256_S1024x256_1_0_0_1_n_n.contr.Idx) :
    (dot_S1024x2048_S2048x256_S1024x256_1_0_0_1_n_n.rhsIdx i q 0).val = (q ⟨0, by decide⟩).val :=
  dot_S1024x2048_S2048x256_S1024x256_1_0_0_1_n_n.rhsIdx_val_of_single rfl i q
theorem rhs_col (i : S1024x256.Idx) (q : dot_S1024x2048_S2048x256_S1024x256_1_0_0_1_n_n.contr.Idx) :
    (dot_S1024x2048_S2048x256_S1024x256_1_0_0_1_n_n.rhsIdx i q 1).val = (i 1).val := by
  unfold DotDims.rhsIdx
  rw [dif_neg (show ¬(1 : Fin S2048x256.rank) ∈ dot_S1024x2048_S2048x256_S1024x256_1_0_0_1_n_n.rhsBatch by decide), dif_pos (show (1 : Fin S2048x256.rank) ∈ dot_S1024x2048_S2048x256_S1024x256_1_0_0_1_n_n.rhsNonContracting by decide)]
  rfl

/-- The block product into a zero accumulator, at entry `(r, o)`: `Σ_l X[r,l] · Y[l,o]`. -/
theorem blockProduct_at (X : FVec Ideal S1024x2048 .bf16) (Y : FVec Ideal S2048x256 .bf16) (r : Fin 1024) (o : Fin 256) :
    matmul dot_S1024x2048_S2048x256_S1024x256_1_0_0_1_n_n none X Y (constant (F := Ideal) S1024x256 .f32 0x00000000#32) (ix2 r o)
      = ∑ l : Fin 2048, X (ix2 r l) * Y (ix2 l o) := by
  simp only [matmul]
  rw [Ideal.matmul_constant_zero_apply, ← Equiv.sum_comp (contrEquiv1 dot_S1024x2048_S2048x256_S1024x256_1_0_0_1_n_n 2048 rfl rfl).symm]
  refine Finset.sum_congr rfl fun k _ => ?_
  have hk := contrEquiv1_symm_val dot_S1024x2048_S2048x256_S1024x256_1_0_0_1_n_n 2048 rfl rfl k
  have el : dot_S1024x2048_S2048x256_S1024x256_1_0_0_1_n_n.lhsIdx (ix2 r o) ((contrEquiv1 dot_S1024x2048_S2048x256_S1024x256_1_0_0_1_n_n 2048 rfl rfl).symm k) = ix2 r k := funext fun a => Fin.ext (by
    match a with
    | ⟨0, _⟩ => exact lhs_row _ _
    | ⟨1, _⟩ => exact (lhs_pos _ _).trans hk)
  have er : dot_S1024x2048_S2048x256_S1024x256_1_0_0_1_n_n.rhsIdx (ix2 r o) ((contrEquiv1 dot_S1024x2048_S2048x256_S1024x256_1_0_0_1_n_n 2048 rfl rfl).symm k) = ix2 k o := funext fun a => Fin.ext (by
    match a with
    | ⟨0, _⟩ => exact (rhs_pos _ _).trans hk
    | ⟨1, _⟩ => exact rhs_col _ _)
  rw [el, er]

/-- A column `[a, 1]` broadcast along the second axis reads, at `(p, c)`, the column's entry of row `p`. -/
theorem broadcastColumn_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reset block is zero everywhere. -/
theorem reset_at (r : Fin 1024) (o : Fin 256) : (k2_pay1 (F := Ideal)) (ix2 r o) = 0 := by
  unfold k2_pay1
  show Ideal.ofBits .f32 0x00000000#32 = 0
  exact Ideal.ofBits_zero_f32

/-- The accumulation step at entry `(r, o)`: what the block held plus `Σ_l x0[r,l] · x1[l,o]` (the narrowing to bf16 is the
    identity on extended reals). -/
theorem accumulate_at (x0 : Vec Ideal S1024x2048 .f32) (x1 : Vec Ideal S2048x256 .f32) (xo : Vec Ideal S1024x256 .f32)
    (r : Fin 1024) (o : Fin 256) :
    k2_pay2 (F := Ideal) x0 x1 xo (ix2 r o) = xo (ix2 r o) + ∑ l : Fin 2048, x0 (ix2 r l) * x1 (ix2 l o) := by
  unfold k2_pay2
  refine (addf_apply _ _ (ix2 r o)).trans ?_
  refine congrArg₂ (· + ·) ?_ ?_
  · exact congrFun (shapeCast_self xo _) (ix2 r o)
  · refine (blockProduct_at _ _ r o).trans ?_
    refine Finset.sum_congr rfl fun l _ => ?_
    refine congrArg₂ (· * ·) rfl ?_
    exact congrFun (shapeCast_self x1 _) (ix2 l o)

/-- The scaling step at entry `(r, o)`: the block's entry times the column's entry of row `r`. -/
theorem scale_at (y : Vec Ideal S1024x256 .f32) (x2 : Vec Ideal S1024x1 .f32) (r : Fin 1024) (o : Fin 256) :
    k2_pay3 (F := Ideal) y x2 (ix2 r o) = y (ix2 r o) * x2 (ix2 r (0 : Fin 1)) := by
  unfold k2_pay3
  refine (mulf_apply _ _ (ix2 r o)).trans ?_
  refine congrArg₂ (· * ·) ?_ ?_
  · exact congrFun (shapeCast_self y _) (ix2 r o)
  · refine (broadcastColumn_apply _ broadcasts_S1024x1_S1024x256 r o).trans ?_
    exact congrFun (shapeCast_self x2 _) (ix2 r (0 : Fin 1))

/-! ## The blocks the windows read, inside their arrays -/

/-- The block indices at every point, decided over the grid: point `t = 4q + b` reads block `(q, b)` of the matrix,
    block `(b, 0)` of the second factor and block `(q, 0)` of the column, and carries block `(q, 0)` of the result. -/
theorem idx_facts : ∀ t : Fin cfg2.N,
    win2_0.index t (0 : Fin 2) = t.val / 4 ∧ win2_0.index t (1 : Fin 2) = t.val % 4
    ∧ win2_1.index t (0 : Fin 2) = t.val % 4 ∧ win2_1.index t (1 : Fin 2) = 0
    ∧ win2_2.index t (0 : Fin 2) = t.val / 4 ∧ win2_2.index t (1 : Fin 2) = 0
    ∧ win2_3.index t (0 : Fin 2) = t.val / 4 ∧ win2_3.index t (1 : Fin 2) = 0 :=
  (by decide +kernel : ∀ t : Fin grid2.N, _)

/-- The three input blocks at a point and the three arrays they are read from, at their literal shapes. -/
abbrev blockA (c : Dev nD) (t : Fin cfg2.N) : Vec Ideal S1024x2048 .f32 := iblk2 V c 0 t
abbrev blockS (c : Dev nD) (t : Fin cfg2.N) : Vec Ideal S2048x256 .f32 := iblk2 V c 1 t
abbrev blockD (c : Dev nD) (t : Fin cfg2.N) : Vec Ideal S1024x1 .f32 := iblk2 V c 2 t
abbrev arrA (c : Dev nD) : SNN.Idx → EReal := V c main_arg0
abbrev arrS (c : Dev nD) : SNO.Idx → EReal := V c main_v1
abbrev arrD (c : Dev nD) : SN1.Idx → EReal := V c main_v0

/-- Entry `(r, l)` of the matrix's block at point `t` is entry `(1024·(t/4) + r, 2048·(t%4) + l)` of the matrix. -/
theorem blockA_at (c : Dev nD) (t : Fin cfg2.N) (r : Fin 1024) (l : Fin 2048) (i k : Fin 8192)
    (hi : i.val = t.val / 4 * 1024 + r.val) (hk : k.val = t.val % 4 * 2048 + l.val) :
    blockA V c t (ix2 r l) = arrA V c (ix2 i k) := by
  obtain ⟨e0, e1, -⟩ := idx_facts t
  show iblk2 V c 0 t (ix2 r l) = V c main_arg0 (ix2 i k)
  unfold iblk2
  rw [View.read_apply]
  show V c main_arg0 _ = V c main_arg0 _
  congr 1
  funext a
  apply Fin.ext
  match a with
  | ⟨0, _⟩ => show win2_0.index t (0 : Fin 2) * 1024 + 1 * r.val = i.val; omega
  | ⟨1, _⟩ => show win2_0.index t (1 : Fin 2) * 2048 + 1 * l.val = k.val; omega

/-- Entry `(l, o)` of the second factor's block at point `t` is its entry `(2048·(t%4) + l, o)`. -/
theorem blockS_at (c : Dev nD) (t : Fin cfg2.N) (l : Fin 2048) (o : Fin 256) (k : Fin 8192)
    (hk : k.val = t.val % 4 * 2048 + l.val) :
    blockS V c t (ix2 l o) = arrS V c (ix2 k o) := by
  obtain ⟨-, -, e0, e1, -⟩ := idx_facts t
  show iblk2 V c 1 t (ix2 l o) = V c main_v1 (ix2 k o)
  unfold iblk2
  rw [View.read_apply]
  show V c main_v1 _ = V c main_v1 _
  congr 1
  funext a
  apply Fin.ext
  match a with
  | ⟨0, _⟩ => show win2_1.index t (0 : Fin 2) * 2048 + 1 * l.val = k.val; omega
  | ⟨1, _⟩ => show win2_1.index t (1 : Fin 2) * 256 + 1 * o.val = o.val; omega

/-- Entry `(r, 0)` of the column's block at point `t` is the column's entry of row `1024·(t/4) + r`. -/
theorem blockD_at (c : Dev nD) (t : Fin cfg2.N) (r : Fin 1024) (i : Fin 8192)
    (hi : i.val = t.val / 4 * 1024 + r.val) :
    blockD V c t (ix2 r (0 : Fin 1)) = arrD V c (ix2 i (0 : Fin 1)) := by
  obtain ⟨-, -, -, -, e0, e1, -⟩ := idx_facts t
  show iblk2 V c 2 t (ix2 r (0 : Fin 1)) = V c main_v0 (ix2 i (0 : Fin 1))
  unfold iblk2
  rw [View.read_apply]
  show V c main_v0 _ = V c main_v0 _
  congr 1
  funext a
  apply Fin.ext
  match a with
  | ⟨0, _⟩ => show win2_2.index t (0 : Fin 2) * 1024 + 1 * r.val = i.val; omega
  | ⟨1, _⟩ => show win2_2.index t (1 : Fin 2) * 1 + 1 * 0 = 0; omega

/-! ## The carried block after each point of a row block's four column steps -/

theorem outs_first (c : Dev nD) (n : ℕ) (hn : n < cfg2.N) (h : n % 4 = 0) :
    outsAt2 V c n hn = k2_pay2 (blockA V c ⟨n, hn⟩) (blockS V c ⟨n, hn⟩) (k2_pay1 (F := Ideal)) :=
  (outsAt2_A V c ⟨n, hn⟩ h (by dsimp only; omega)).trans
    (out_A (F := Ideal) c (grid2.coords ⟨n, hn⟩) (ms2_0 ⟨n, hn⟩) (hs2_0 ⟨n, hn⟩) (ms2_1 ⟨n, hn⟩) (hs2_1 ⟨n, hn⟩)
      (ms2_2 ⟨n, hn⟩) (hs2_2 ⟨n, hn⟩) (ms2_3 ⟨n, hn⟩) (hs2_3 ⟨n, hn⟩) _ _
      (iblk2 V c 0 ⟨n, hn⟩) (iblk2 V c 1 ⟨n, hn⟩) (iblk2 V c 2 ⟨n, hn⟩))

theorem outs_middle (c : Dev nD) (p : ℕ) (hn : p + 1 < cfg2.N) (h0 : ¬(p + 1) % 4 = 0) (h1 : ¬(p + 1) % 4 = 3) :
    outsAt2 V c (p + 1) hn
      = k2_pay2 (blockA V c ⟨p + 1, hn⟩) (blockS V c ⟨p + 1, hn⟩) (outsAt2 V c p (Nat.lt_of_succ_lt hn)) :=
  (outsAt2_B V c ⟨p + 1, hn⟩ h0 h1).trans
    (out_B (F := Ideal) c (grid2.coords ⟨p + 1, hn⟩) (ms2_0 ⟨p + 1, hn⟩) (hs2_0 ⟨p + 1, hn⟩) (ms2_1 ⟨p + 1, hn⟩) (hs2_1 ⟨p + 1, hn⟩)
      (ms2_2 ⟨p + 1, hn⟩) (hs2_2 ⟨p + 1, hn⟩) (ms2_3 ⟨p + 1, hn⟩) (hs2_3 ⟨p + 1, hn⟩) _ _
      (iblk2 V c 0 ⟨p + 1, hn⟩) (iblk2 V c 1 ⟨p + 1, hn⟩) (iblk2 V c 2 ⟨p + 1, hn⟩) (outsAt2 V c p (Nat.lt_of_succ_lt hn)))

theorem outs_last (c : Dev nD) (p : ℕ) (hn : p + 1 < cfg2.N) (h0 : ¬(p + 1) % 4 = 0) (h1 : (p + 1) % 4 = 3) :
    outsAt2 V c (p + 1) hn
      = k2_pay3 (k2_pay2 (blockA V c ⟨p + 1, hn⟩) (blockS V c ⟨p + 1, hn⟩) (outsAt2 V c p (Nat.lt_of_succ_lt hn)))
          (blockD V c ⟨p + 1, hn⟩) :=
  (outsAt2_C V c ⟨p + 1, hn⟩ h0 h1).trans
    (out_C (F := Ideal) c (grid2.coords ⟨p + 1, hn⟩) (ms2_0 ⟨p + 1, hn⟩) (hs2_0 ⟨p + 1, hn⟩) (ms2_1 ⟨p + 1, hn⟩) (hs2_1 ⟨p + 1, hn⟩)
      (ms2_2 ⟨p + 1, hn⟩) (hs2_2 ⟨p + 1, hn⟩) (ms2_3 ⟨p + 1, hn⟩) (hs2_3 ⟨p + 1, hn⟩) _ _
      (iblk2 V c 0 ⟨p + 1, hn⟩) (iblk2 V c 1 ⟨p + 1, hn⟩) (iblk2 V c 2 ⟨p + 1, hn⟩) (outsAt2 V c p (Nat.lt_of_succ_lt hn)))

/-- After the last column step of row block `q` the carried block is the zero block with the four partial products added
    in order, scaled by the column. -/
theorem outs_flush (c : Dev nD) (q : ℕ) (hq : 4 * q + 3 < cfg2.N) :
    outsAt2 V c (4 * q + 3) hq
      = k2_pay3 (k2_pay2 (blockA V c ⟨4 * q + 3, hq⟩) (blockS V c ⟨4 * q + 3, hq⟩)
          (k2_pay2 (blockA V c ⟨4 * q + 2, by omega⟩) (blockS V c ⟨4 * q + 2, by omega⟩)
            (k2_pay2 (blockA V c ⟨4 * q + 1, by omega⟩) (blockS V c ⟨4 * q + 1, by omega⟩)
              (k2_pay2 (blockA V c ⟨4 * q, by omega⟩) (blockS V c ⟨4 * q, by omega⟩) (k2_pay1 (F := Ideal))))))
          (blockD V c ⟨4 * q + 3, hq⟩) := by
  have e3 := outs_last V c (4 * q + 2) hq (by omega) (by omega)
  have e2 := outs_middle V c (4 * q + 1) (by omega) (by omega) (by omega)
  have e1 := outs_middle V c (4 * q) (by omega) (by omega) (by omega)
  have e0 := outs_first V c (4 * q) (by omega) (by omega)
  rw [e0] at e1
  rw [e1] at e2
  rw [e2] at e3
  exact e3

/-! ## The flushed block, entry by entry: the four partial products are the whole contraction -/

/-- The 8192 contracted positions are 4 consecutive blocks of 2048. -/
theorem hsplit : 8192 = 4 * 2048 := by norm_num

/-- The partial product of column step `b`, over the arrays: the contraction restricted to the positions of block `b`. -/
theorem partial_at (c : Dev nD) (t : Fin cfg2.N) (b : Fin 4) (hb : t.val % 4 = b.val) (r : Fin 1024) (o : Fin 256)
    (i : Fin 8192) (hi : i.val = t.val / 4 * 1024 + r.val) :
    ∑ l : Fin 2048, blockA V c t (ix2 r l) * blockS V c t (ix2 l o)
      = ∑ l : Fin 2048, arrA V c (ix2 i (Cert.BlockSum.at' hsplit b l)) * arrS V c (ix2 (Cert.BlockSum.at' hsplit b l) o) :=
  Finset.sum_congr rfl fun l _ => congrArg₂ (· * ·)
    (blockA_at V c t r l i (Cert.BlockSum.at' hsplit b l) hi (by rw [Cert.BlockSum.at'_val, hb]; omega))
    (blockS_at V c t l o (Cert.BlockSum.at' hsplit b l) (by rw [Cert.BlockSum.at'_val, hb]; omega))

/-- Entry `(r, o)` of the block carried after the last column step of row block `q` is entry `j = (1024 q + r, o)` of the
    aggregate: `0 + m₀ + m₁ + m₂ + m₃` with `m_b` the contraction over block `b`'s positions is the contraction over all
    positions (addition of extended reals is associative and `0` is neutral), and the scaling is by row `1024 q + r`'s entry. -/
theorem flush_entry (c : Dev nD) (n : ℕ) (hn : n < cfg2.N) (q : ℕ) (hq : n = 4 * q + 3) (r : Fin 1024) (o : Fin 256)
    (j : SNO.Idx) (h0 : (j 0).val = q * 1024 + r.val) (h1 : (j 1).val = o.val) :
    outsAt2 V c n hn (ix2 r o) = aggregate (arrA V c) (arrS V c) (arrD V c) j := by
  subst hq
  obtain ⟨i, o', rfl⟩ : ∃ (i : Fin 8192) (o' : Fin 256), j = ix2 i o' := ⟨j 0, j 1, eq_ix2 j⟩
  obtain rfl : o' = o := Fin.ext h1
  have hi : i.val = q * 1024 + r.val := h0
  show _ = (∑ k : Fin 8192, arrA V c (ix2 i k) * arrS V c (ix2 k o')) * arrD V c (ix2 i (0 : Fin 1))
  rw [outs_flush V c q hn]
  refine (scale_at _ _ r o').trans ?_
  refine congrArg₂ (· * ·) ?_ (blockD_at V c ⟨4 * q + 3, hn⟩ r i (by dsimp only; omega))
  rw [accumulate_at, accumulate_at, accumulate_at, accumulate_at, reset_at, zero_add,
    Cert.BlockSum.sum_blocks hsplit, Fin.sum_univ_four]
  refine congrArg₂ (· + ·) (congrArg₂ (· + ·) (congrArg₂ (· + ·) ?_ ?_) ?_) ?_
  · exact partial_at V c ⟨4 * q, by omega⟩ 0 (by show (4 * q) % 4 = 0; omega) r o' i (by dsimp only; omega)
  · exact partial_at V c ⟨4 * q + 1, by omega⟩ 1 (by show (4 * q + 1) % 4 = 1; omega) r o' i (by dsimp only; omega)
  · exact partial_at V c ⟨4 * q + 2, by omega⟩ 2 (by show (4 * q + 2) % 4 = 2; omega) r o' i (by dsimp only; omega)
  · exact partial_at V c ⟨4 * q + 3, hn⟩ 3 (by show (4 * q + 3) % 4 = 3; omega) r o' i (by dsimp only; omega)

/-! ## From the flushed blocks to the array -/

/-- What a flushing point (the last column step of a row block) writes back is its block of the aggregate. -/
theorem flushed_eq (c : Dev nD) (t : Fin cfg2.N) (hf : (cfg2.win 3).flush t = true) :
    (dat2 V c).flushed 3 t
      = ((cfg2.win 3).blk t).view.read (Elt Ideal) (aggregate (V c main_arg0) (V c main_v1) (V c main_v0)) := by
  have h3 : t.val % 4 = 3 := (flush2_3 t).mp hf
  obtain ⟨-, -, -, -, -, -, e0, e1⟩ := idx_facts t
  show (cfg2.win 3).cut (grid2.coords t) ((dat2 V c).after 3 t) = _
  rw [after2_3]
  funext y
  obtain ⟨r, o, rfl⟩ : ∃ (r : Fin 1024) (o : Fin 256), y = ix2 r o := ⟨y 0, y 1, eq_ix2 y⟩
  rw [View.read_apply]
  refine flush_entry V c t.val t.isLt (t.val / 4) (by omega) r o _ ?_ ?_
  · show win2_3.index t (0 : Fin 2) * 1024 + 1 * r.val = t.val / 4 * 1024 + r.val
    omega
  · show win2_3.index t (1 : Fin 2) * 256 + 1 * o.val = o.val
    omega

/-- The result array after the region: every row lies in the block its row block's last column step writes back. -/
theorem final (c : Dev nD) : (dat2 (F := Ideal) V c).arrAt 3 cfg2.N = aggregate (V c main_arg0) (V c main_v1) (V c main_v0) :=
  (dat2 V c).arrAt_eq_of_cover 3 (aggregate (V c main_arg0) (V c main_v1) (V c main_v0)) (flushed_eq V c) fun i => by
    have hN : cfg2.N = 32 := N_2
    have hi0 : (i 0 : Nat) < 8192 := (i 0).isLt
    have hi1 : (i 1 : Nat) < 256 := (i 1).isLt
    have ht : 4 * ((i 0 : Nat) / 1024) + 3 < cfg2.N := by omega
    obtain ⟨-, -, -, -, -, -, e0, e1⟩ := idx_facts ⟨4 * ((i 0 : Nat) / 1024) + 3, ht⟩
    refine ⟨⟨4 * ((i 0 : Nat) / 1024) + 3, ht⟩, (flush2_3 _).mpr (by dsimp only; omega), ?_⟩
    show i ∈ ((View.whole main_v2).slice (win2_3.rect ⟨4 * ((i 0 : Nat) / 1024) + 3, ht⟩)).set
    rw [View.set_slice_whole, Rect.mem_set_unit]
    intro a
    match a with
    | ⟨0, _⟩ =>
      show win2_3.index ⟨4 * ((i 0 : Nat) / 1024) + 3, ht⟩ (0 : Fin 2) * 1024 ≤ (i 0 : Nat)
        ∧ (i 0 : Nat) < win2_3.index ⟨4 * ((i 0 : Nat) / 1024) + 3, ht⟩ (0 : Fin 2) * 1024 + 1024
      dsimp only at e0
      omega
    | ⟨1, _⟩ =>
      show win2_3.index ⟨4 * ((i 0 : Nat) / 1024) + 3, ht⟩ (1 : Fin 2) * 256 ≤ (i 1 : Nat)
        ∧ (i 1 : Nat) < win2_3.index ⟨4 * ((i 0 : Nat) / 1024) + 3, ht⟩ (1 : Fin 2) * 256 + 256
      omega

end Cert.KernelIdeal.AggregateRegion
end
-- ==== Proof.Chain.lean ====
/-
  The kernel's three stages, chained through the contents of the buffers at the boundaries between them: the first
  stage leaves the column of normalising factors `d`, the second `(X·W)` scaled row by row by `d`, the third the
  adjacency times that, scaled by `d` again; no stage writes an argument, and each later stage finds the earlier
  results where they were left. So the result array ends at `kernelValue` of the three arguments.
-/
import proofs.«118094_j44229573214372_1_alg».proof.Proof.KRun
import proofs.«118094_j44229573214372_1_alg».proof.Proof.Spec
import proofs.«118094_j44229573214372_1_alg».proof.Proof.DegreeRegion
import proofs.«118094_j44229573214372_1_alg».proof.Proof.SupportRegion
import proofs.«118094_j44229573214372_1_alg».proof.Proof.AggregateRegion

set_option maxRecDepth 16384

noncomputable section

namespace Cert.KernelIdeal.Chain

open Cert.KernelIdeal Cert.KernelIdeal.Gen Cert.GraphConv
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## After the first stage -/

theorem after1_arg0 (c : Dev nD) : V1 m ρ c main_arg0 = m ((c : Thread nD τ).loc main_arg0) :=
  (W1_arr m ρ c 0).trans (((dat0 (V0 m ρ) c).arrAt_in 0 rfl _).trans (A_eq0 (V0 m ρ) c 0))
theorem after1_arg1 (c : Dev nD) : V1 m ρ c main_arg1 = m ((c : Thread nD τ).loc main_arg1) :=
  W1_of_ne m ρ c main_arg1 (by decide)
theorem after1_arg2 (c : Dev nD) : V1 m ρ c main_arg2 = m ((c : Thread nD τ).loc main_arg2) :=
  W1_of_ne m ρ c main_arg2 (by decide)
/-- The column of normalising factors of the adjacency's rows. -/
theorem after1_factors (c : Dev nD) : V1 m ρ c main_v0 = degColumn (m ((c : Thread nD τ).loc main_arg0)) :=
  (W1_arr m ρ c 1).trans (DegreeRegion.final (V0 m ρ) c)

/-! ## After the second stage -/

theorem after2_arg0 (c : Dev nD) : V2 m ρ c main_arg0 = m ((c : Thread nD τ).loc main_arg0) :=
  (W2_of_ne m ρ c main_arg0 (by decide)).trans (after1_arg0 m ρ c)
theorem after2_factors (c : Dev nD) : V2 m ρ c main_v0 = degColumn (m ((c : Thread nD τ).loc main_arg0)) :=
  ((W2_arr m ρ c 2).trans (((dat1 (V1 m ρ) c).arrAt_in 2 rfl _).trans (A_eq1 (V1 m ρ) c 2))).trans (after1_factors m ρ c)
/-- `X·W`, each row scaled by its factor. -/
theorem after2_support (c : Dev nD) : V2 m ρ c main_v1
    = scaledSupport (m ((c : Thread nD τ).loc main_arg1)) (m ((c : Thread nD τ).loc main_arg2)) (degColumn (m ((c : Thread nD τ).loc main_arg0))) :=
  (W2_arr m ρ c 3).trans ((SupportRegion.final (V1 m ρ) c).trans (by
    rw [after1_arg1 m ρ c, after1_arg2 m ρ c, after1_factors m ρ c]))

/-! ## After the third stage -/

/-- The result array: the adjacency times the scaled support, each row scaled by its factor again. -/
theorem result (c : Dev nD) : W3 m ρ c (Proc.devRef .tc main_v2)
    = kernelValue (m ((c : Thread nD τ).loc main_arg0)) (m ((c : Thread nD τ).loc main_arg1)) (m ((c : Thread nD τ).loc main_arg2)) :=
  (W3_arr m ρ c 3).trans ((AggregateRegion.final (V2 m ρ) c).trans (by
    rw [after2_arg0 m ρ c, after2_support m ρ c, after2_factors m ρ c]; rfl))

/-- Every weakly fair execution of the kernel's program terminates with the result array at `kernelValue` of the launch
    contents of its arguments, which end unchanged. -/
theorem run : θ_run defs (onTc (τ := τ) (main (F := Ideal))) ⟨m, fun _ => 0, ρ⟩ fun r => ∀ c : Dev nD,
      r.2.mem ((c.tc : Thread nD τ).loc main_v2)
        = kernelValue (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (result m ρ c), (h c).2⟩) (Cert.KernelIdeal.Named.run (F := Ideal) m ρ)

end Cert.KernelIdeal.Chain

end
-- ==== Proof.RefValue.lean ====
/-
  What the reference computes, read index by index: its result array at `(i, o)` is
  `Σ_k ((d i · A[i,k]) · d k) · (Σ_f X[k,f]·W[f,o])` with `d i = (1 + Σ_k A[i,k])^(-1/2)` — the normalising factor
  broadcast once down the rows and once along the columns of `A`, and two matrix products read as plain sums
  over the contracted axis.
-/
import proofs.«118094_j44229573214372_1_alg».proof.Proof.Gen.ReferenceIdeal.Read
import proofs.«118094_j44229573214372_1_alg».proof.Proof.Spec

noncomputable section

namespace Cert.ReferenceIdeal.RefValue

open Cert.ReferenceIdeal Cert.ReferenceIdeal.Gen Cert.ReferenceIdeal.Read Cert.GraphConv
open Idealize.ShloMosaic Idealize.ShloMosaic.ValueIdx Idealize.SL.Sem
open scoped BigOperators

/-- The reference's normalising vector at row `i` is `(1 + Σ_k A[i,k])^(-1/2)`: the host sum starts from the zero
    word, which is `0`. -/
theorem factor_eq (A : (⟨S8192x8192, .f32⟩ : BufTy).Contents (Elt Ideal)) (i : S8192.Idx) :
    val_main_v3 (F := Ideal) A i = invSqrtDeg A (i 0) := by
  rw [val_main_v3_apply, val_main_v2_apply, val_main_v1_apply, val_main_cst_0_apply, val_main_v0_apply, val_main_cst_apply]
  simp only [Ideal.hostUnary_rsqrt_def, Ideal.addf_def, Ideal.ofBits_def, Ideal.ofBits_zero_f32, zero_add]
  unfold invSqrtDeg
  refine congrArg (fun s => Ideal.rsqrt (one + s)) (Finset.sum_congr rfl fun k _ => congrArg A ?_)
  exact funext fun a => Fin.ext (by match a with | ⟨0, _⟩ => rfl | ⟨1, _⟩ => rfl)

/-- The normalised adjacency at `(i, k)`: row `i`'s factor times the entry times row `k`'s factor. -/
theorem normAdj_eq (A : (⟨S8192x8192, .f32⟩ : BufTy).Contents (Elt Ideal)) (i k : Fin 8192) :
    val_main_v9 (F := Ideal) A (ix2 i k) = (invSqrtDeg A i * A (ix2 i k)) * invSqrtDeg A k := by
  rw [val_main_v9_apply, val_main_v6_apply, val_main_v5_apply, val_main_v4_apply, val_main_v8_apply, val_main_v7_apply,
    factor_eq, factor_eq]
  rfl

/-- The reference's result is `referenceValue` of its three arguments. -/
theorem result_eq (A : (⟨S8192x8192, .f32⟩ : BufTy).Contents (Elt Ideal)) (X : (⟨S8192x512, .f32⟩ : BufTy).Contents (Elt Ideal))
    (W : (⟨S512x256, .f32⟩ : BufTy).Contents (Elt Ideal)) :
    val_main_v11 (F := Ideal) A X W = referenceValue A X W := by
  funext j
  obtain ⟨p, q, rfl⟩ : ∃ (p : Fin 8192) (q : Fin 256), j = ix2 p q := ⟨j 0, j 1, eq_ix2 j⟩
  rw [val_main_v11_apply]
  show _ = ∑ k : Fin 8192, ((invSqrtDeg A p * A (ix2 p k)) * invSqrtDeg A k) * (∑ f : Fin 512, X (ix2 k f) * W (ix2 f q))
  refine Finset.sum_congr rfl fun k _ => ?_
  have e1 : lidx_main_v11 (ix2 p q) k = ix2 p k := funext fun a => Fin.ext (by match a with | ⟨0, _⟩ => rfl | ⟨1, _⟩ => rfl)
  have e2 : ridx_main_v11 (ix2 p q) k = ix2 k q := funext fun a => Fin.ext (by match a with | ⟨0, _⟩ => rfl | ⟨1, _⟩ => rfl)
  rw [e1, e2, normAdj_eq, val_main_v10_apply]
  refine congrArg (_ * ·) (Finset.sum_congr rfl fun f _ => ?_)
  have e3 : lidx_main_v10 (ix2 k q) f = ix2 k f := funext fun a => Fin.ext (by match a with | ⟨0, _⟩ => rfl | ⟨1, _⟩ => rfl)
  have e4 : ridx_main_v10 (ix2 k q) f = ix2 f q := funext fun a => Fin.ext (by match a with | ⟨0, _⟩ => rfl | ⟨1, _⟩ => rfl)
  rw [e3, e4]

/-- Every weakly fair execution of the reference terminates with its result at `referenceValue` of the launch
    contents of its arguments, which end unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v11)
        = referenceValue (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1.trans (val_main_v11_eq _ _ _)).trans (result_eq _ _ _), (h c).2⟩)
    (Cert.ReferenceIdeal.Value.run (F := Ideal) m ρ)

end Cert.ReferenceIdeal.RefValue

end
-- ==== Proof.SpecLaw.lean ====
/-
  The law that joins the two programs. With every input a real number and every `1 + Σ_k A[i,k]` positive, each
  normalising factor `d i = (1 + Σ_k A[i,k])^(-1/2)` is a positive real, so every term on both sides is real and

      (Σ_k A[i,k] · (s k · d k)) · d i  =  Σ_k ((d i · A[i,k]) · d k) · s k        (s k = Σ_f X[k,f]·W[f,o])

  is the distributive law of the reals. (Over the extended reals alone it fails: at a row whose sum is `-1` the factor is
  `+∞`, and `+∞` times a sum of terms of both signs is not the sum of the products.)
-/
import proofs.«118094_j44229573214372_1_alg».proof.Proof.Spec
import Mathlib.Tactic.Ring
import Mathlib.Tactic.NormNum

noncomputable section

namespace Cert.GraphConv

open Idealize.ShloMosaic Idealize.ShloMosaic.ValueIdx
open scoped BigOperators

/-- A finite sum of reals, cast, is the sum of the casts. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The word of `1.0` denotes the real number one. -/
theorem one_eq : one = ((1 : ℝ) : EReal) := by
  show Ideal.ofBits .f32 0x3F800000#32 = _
  simp [Ideal.ofBits, Ideal.ieee, -EReal.coe_mul]; norm_num

/-- Moving a common factor across a finite sum, over the reals. -/
theorem factor_across_sum {ι : Type*} [Fintype ι] (a s d : ι → ℝ) (e : ℝ) :
    (∑ k, a k * (s k * d k)) * e = ∑ k, ((e * a k) * d k) * s k := by
  rw [Finset.sum_mul]
  exact Finset.sum_congr rfl fun k _ => by ring

/-- The same between extended reals that are all casts of reals. -/
theorem factor_across_sum_coe {ι : Type*} [Fintype ι] (a s d : ι → ℝ) (e : ℝ) :
    (∑ k, (a k : EReal) * ((s k : EReal) * (d k : EReal))) * (e : EReal)
      = ∑ k, (((e : EReal) * (a k : EReal)) * (d k : EReal)) * (s k : EReal) := by
  have h := congrArg (fun r : ℝ => (r : EReal)) (factor_across_sum a s d e)
  simp only [EReal.coe_mul, coe_sum] at h
  exact h

/-- Under finite inputs and positive `1 + Σ_k A[i,k]`, row `i`'s normalising factor is a real number. -/
theorem invSqrtDeg_real (A : SNN.Idx → EReal) (a : SNN.Idx → ℝ) (ha : ∀ i, A i = (a i : EReal))
    (i : Fin 8192) (hpos : (0 : EReal) < one + ∑ k : Fin 8192, A (ix2 i k)) :
    ∃ d : ℝ, invSqrtDeg A i = (d : EReal) := by
  have hs : (∑ k : Fin 8192, A (ix2 i k)) = ((∑ k : Fin 8192, a (ix2 i k) : ℝ) : EReal) := by
    rw [coe_sum]; exact Finset.sum_congr rfl fun k _ => ha _
  unfold invSqrtDeg
  rw [hs, one_eq, ← EReal.coe_add] at hpos
  rw [hs, one_eq, ← EReal.coe_add]
  have hp : (0 : ℝ) < 1 + ∑ k : Fin 8192, a (ix2 i k) := EReal.coe_pos.1 hpos
  exact ⟨(Real.sqrt (1 + ∑ k : Fin 8192, a (ix2 i k)))⁻¹, by
    rw [Ideal.rsqrt_coe, if_neg (not_lt.2 hp.le), if_neg hp.ne']⟩

/-- THE LAW: under finite inputs and positive `1 + Σ_k A[i,k]` the kernel's three stages compose to the reference's
    normalised product. -/
theorem kernelValue_eq_referenceValue (A : SNN.Idx → EReal) (X : SNI.Idx → EReal) (W : SIO.Idx → EReal)
    (hA : ∀ i, ∃ r : ℝ, A i = (r : EReal)) (hX : ∀ i, ∃ r : ℝ, X i = (r : EReal)) (hW : ∀ i, ∃ r : ℝ, W i = (r : EReal))
    (hpos : ∀ i : Fin 8192, (0 : EReal) < one + ∑ k : Fin 8192, A (ix2 i k)) :
    kernelValue A X W = referenceValue A X W := by
  choose a ha using hA
  choose x hx using hX
  choose w hw using hW
  choose d hd using fun i => invSqrtDeg_real A a ha i (hpos i)
  funext j
  obtain ⟨p, q, rfl⟩ : ∃ (p : Fin 8192) (q : Fin 256), j = ix2 p q := ⟨j 0, j 1, eq_ix2 j⟩
  show (∑ k : Fin 8192, A (ix2 p k) * ((∑ f : Fin 512, X (ix2 k f) * W (ix2 f q)) * invSqrtDeg A k)) * invSqrtDeg A p
    = ∑ k : Fin 8192, ((invSqrtDeg A p * A (ix2 p k)) * invSqrtDeg A k) * (∑ f : Fin 512, X (ix2 k f) * W (ix2 f q))
  have hs : ∀ k : Fin 8192, (∑ f : Fin 512, X (ix2 k f) * W (ix2 f q))
      = ((∑ f : Fin 512, x (ix2 k f) * w (ix2 f q) : ℝ) : EReal) := fun k => by
    rw [coe_sum]; exact Finset.sum_congr rfl fun f _ => by rw [hx, hw, EReal.coe_mul]
  simp only [hs, hd, ha]
  exact factor_across_sum_coe (fun k => a (ix2 p k)) (fun k => ∑ f : Fin 512, x (ix2 k f) * w (ix2 f q)) d (d p)

end Cert.GraphConv

end
-- ==== Proof.PreRead.lean ====
import proofs.«118094_j44229573214372_1_alg».proof.Proof.Gen.Pre_finite_inputs
import proofs.«118094_j44229573214372_1_alg».proof.Proof.Spec
import Idealize.ShloMosaic.Lib.ReduceAll
import Idealize.ShloMosaic.Lib.ValueIdx
import Idealize.ShloMosaic.Lib.Pipeline.Value
import Idealize.ShloMosaic.PureOps.Ideal.Laws
noncomputable section
open Idealize.ShloMosaic Idealize.ShloMosaic.ValueIdx
namespace Cert.PreRead
open Cert.GraphConv
variable [Cert.Pre_finite_inputs.Facts]

/-- The word `0x7F800000` (sign clear, exponent all ones, significand zero) denotes `+∞`. -/
theorem ofBits_inf : Ideal.ofBits .f32 0x7F800000#32 = (⊤ : EReal) := by
  simp [Ideal.ofBits, Ideal.ieee]

/-- An extended real whose absolute value `max x (-x)` lies strictly below `+∞` is a real number: it is neither
    `+∞` (then `x` itself would not be below) nor `-∞` (then `-x` would not be). -/
theorem real_of_abs_lt (x : EReal)
    (hx : Ideal.cmp .olt (max x (-x)) (Ideal.ofBits .f32 0x7F800000#32) = 1#1) : ∃ r : ℝ, x = (r : EReal) := by
  rw [ofBits_inf] at hx
  have hlt : max x (-x) < ⊤ := by
    by_contra hn
    simp [Ideal.cmp, hn] at hx
  induction x using EReal.rec with
  | bot => simp at hlt
  | coe r => exact ⟨r, rfl⟩
  | top => simp at hlt

/-- The comparison `a > 0.0` that came out true, with `a = 1.0 + (0.0 + s)`: the zero word is the real `0`, which
    drops out of the sum, and the order's `>` against `0` is `0 < ·`. -/
theorem pos_of_cmp_gt (s : EReal)
    (hs : Ideal.cmp .ogt (one + (Ideal.ofBits .f32 0x00000000#32 + s)) (Ideal.ofBits .f32 0x00000000#32) = 1#1) :
    (0 : EReal) < one + s := by
  rw [Ideal.ofBits_zero_f32, zero_add] at hs
  by_contra hn
  simp [Ideal.cmp, hn] at hs

/-- A rank-0 shape has exactly one index. -/
instance : Subsingleton Cert.Pre_finite_inputs.S_.Idx := ⟨fun a b => funext fun d => d.elim0⟩

/-- Summing an `[8192, 8192]` array over its second axis: the witness that names the inserted index. -/
theorem redRows : Cert.Pre_finite_inputs.S8192x8192.Reduces [1] Cert.Pre_finite_inputs.S8192 := by decide

/-- Row `i` of the result with column `k` put back in is the entry `(i, k)`. -/
theorem lift_row (i k : Fin 8192) : redRows.lift (ix1 i) k = ix2 i k := by
  funext d
  match d with
  | ⟨0, _⟩ => rfl
  | ⟨1, _⟩ => rfl

/-- The row sum from the initial value `0.0`, read at row `i`: the zero word plus `Σ_k A[i,k]`. -/
theorem rowSum_apply (A : FVec Ideal Cert.Pre_finite_inputs.S8192x8192 .f32) (i : Fin 8192) :
    Ideal.hostReduceAdd Cert.Pre_finite_inputs.Facts.reducesTo_S8192x8192_S8192_d1 A
        (Ideal.ofBits .f32 0x00000000#32) (ix1 i)
      = Ideal.ofBits .f32 0x00000000#32 + ∑ k : Fin 8192, A (ix2 i k) := by
  refine (Ideal.hostReduceAdd_single _ redRows A _ (ix1 i)).trans ?_
  exact congrArg (_ + ·) (Finset.sum_congr rfl fun k _ => congrArg A (lift_row i k))

/-- The precondition's one bit, read back. It is the conjunction of four "for all" tests, each an `and`-reduction
    from `1` of elementwise comparisons, so the bit being `1` makes every comparison `1`: each entry of the three
    arrays has absolute value below `+∞` (hence is a real number), and `1.0` plus each row sum of the first array
    is above `0`. -/
theorem of_pre (A : FVec Ideal Cert.Pre_finite_inputs.S8192x8192 .f32) (X : FVec Ideal Cert.Pre_finite_inputs.S8192x512 .f32)
    (W : FVec Ideal Cert.Pre_finite_inputs.S512x256 .f32)
    (h : Cert.Pre_finite_inputs.fn (F := Ideal) A X W = fun _ => 1#1) :
    (∀ i, ∃ r : ℝ, A i = (r : EReal)) ∧ (∀ i, ∃ r : ℝ, X i = (r : EReal)) ∧ (∀ i, ∃ r : ℝ, W i = (r : EReal))
      ∧ ∀ i : Fin 8192, (0 : EReal) < one + ∑ k : Fin 8192, A (ix2 i k) := by
  have h0 := congrFun h ValueIdx.ix0
  dsimp only [Cert.Pre_finite_inputs.fn, Cert.Pre_finite_inputs.fn_part1] at h0
  -- the bit is the `and` of the four tests: each of them is 1
  simp only [andi, IntOp.andi_eq_one] at h0
  obtain ⟨⟨⟨hA, hX⟩, hW⟩, hS⟩ := h0
  refine ⟨fun i => ?_, fun i => ?_, fun i => ?_, fun i => ?_⟩
  -- an `and`-reduction over every axis that is 1 met a 1 at every index; there the test is `|x| < +∞`
  · exact real_of_abs_lt (A i) (Host.reduce_andi_all _ _ _ _ ix0 hA i)
  · exact real_of_abs_lt (X i) (Host.reduce_andi_all _ _ _ _ ix0 hX i)
  · exact real_of_abs_lt (W i) (Host.reduce_andi_all _ _ _ _ ix0 hW i)
  -- at row `i` the test is `1.0 + (0.0 + Σ_k A[i,k]) > 0.0`
  · refine pos_of_cmp_gt _ ?_
    rw [← rowSum_apply A i]
    exact Host.reduce_andi_all _ _ _ _ ix0 hS (ix1 i)

end Cert.PreRead

end
-- ==== Proof.lean ====
/- The proof of `Cert.Claim`: a graph-convolution layer `D^(-1/2) · A · D^(-1/2) · (X · W)`, `D = diag(1 + row sums of A)`,
   as three tiled stages against a four-line reference.

   The kernel's stages: (1) the column `d i = (1 + Σ_k A[i,k])^(-1/2)`, each row sum accumulated over four column blocks
   of `A`; (2) `S = (X·W)` with row `j` scaled by `d j`; (3) `A·S`, accumulated over the same four blocks, with row `i`
   scaled by `d i`. The reference forms the normalised adjacency `(d i · A[i,k]) · d k` entry by entry and multiplies it
   by `X·W`. Over the extended reals a matrix product is the plain sum over the contracted index, a change of float format
   is the identity, and a sum may be taken in any order or grouping, so the only difference between the two sides is where
   the factor `d i` stands: inside every term of the sum over `k`, or once outside it.

   Moving it is the distributive law, and that law needs every term finite. The inputs are finite by the precondition, but
   `d i` is `+∞` where `1 + Σ_k A[i,k] = 0` and has no value below that, and at such a row the two sides differ (row
   `(1, -2, 0, …)` of `A` against `(X·W)[0,o] = (X·W)[1,o] = -1`: the kernel ends at `+∞`, the reference at `-∞`). The
   precondition therefore also asks `1 + Σ_k A[i,k] > 0` of every row — the domain of the reference's own inverse square
   root — and under it every `d i` is a positive real and the two sides are one real number (Proof/SpecLaw.lean).

   The pieces: Proof/Spec.lean states both values as pure functions of the arguments; Proof/PreRead.lean reads the
   precondition back; Proof/RefValue.lean reads the reference's run; Proof/DegreeRegion.lean, Proof/SupportRegion.lean and
   Proof/AggregateRegion.lean read what each stage leaves in its output array, as functions of what it found in its
   inputs; Proof/KRun.lean and Proof/Chain.lean carry those through the program's run. The idealization rewrote no
   operation, so `preserves` has nothing to state. -/
import proofs.«118094_j44229573214372_1_alg».proof.Defs
import proofs.«118094_j44229573214372_1_alg».proof.Proof.Gen.Kernel
import proofs.«118094_j44229573214372_1_alg».proof.Proof.Gen.Kernel.Skeleton
import proofs.«118094_j44229573214372_1_alg».proof.Proof.Gen.Kernel.Launch
import proofs.«118094_j44229573214372_1_alg».proof.Proof.Gen.Kernel.Points
import proofs.«118094_j44229573214372_1_alg».proof.Proof.Gen.Kernel.Frame
import proofs.«118094_j44229573214372_1_alg».proof.Proof.Gen.KernelIdeal
import proofs.«118094_j44229573214372_1_alg».proof.Proof.Gen.KernelIdeal.Skeleton
import proofs.«118094_j44229573214372_1_alg».proof.Proof.Gen.KernelIdeal.Launch
import proofs.«118094_j44229573214372_1_alg».proof.Proof.Gen.KernelIdeal.Points
import proofs.«118094_j44229573214372_1_alg».proof.Proof.Gen.KernelIdeal.Frame
import proofs.«118094_j44229573214372_1_alg».proof.Proof.Gen.ReferenceIdeal
import proofs.«118094_j44229573214372_1_alg».proof.Proof.Gen.Pre_finite_inputs
import proofs.«118094_j44229573214372_1_alg».proof.Proof.Chain
import proofs.«118094_j44229573214372_1_alg».proof.Proof.RefValue
import proofs.«118094_j44229573214372_1_alg».proof.Proof.SpecLaw
import proofs.«118094_j44229573214372_1_alg».proof.Proof.PreRead
import Idealize.ShloMosaic.Adequacy
import Idealize.ShloMosaic.Init

noncomputable section

namespace Cert.Proof

open Idealize.ShloMosaic Idealize.SL.Sem Cert.GraphConv

/-- The word-level program runs and leaves its arguments alone. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs too: its run, with the result forgotten. -/
theorem frame_referenceIdeal : Cert.frame_ReferenceIdeal := fun m ρ _ =>
  (θ_run Cert.ReferenceIdeal.defs _ _).mono (fun _ h c => (h c).2) (Cert.ReferenceIdeal.RefValue.run m ρ)

/-- No operation was rewritten. -/
theorem preserves : Cert.preserves_Kernel_KernelIdeal := trivial

/-- From memories that agree on the arguments, the kernel ends at `kernelValue` of them and the reference at
    `referenceValue`; under the precondition (finite entries, every `1 + Σ_k A[i,k]` positive) these are equal. -/
theorem algebraic : Cert.algebraic_KernelIdeal_ReferenceIdeal := by
  intro m ρ m' ρ' hpre hagree
  refine ⟨fun c => kernelValue (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), Cert.KernelIdeal.Chain.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2]
  obtain ⟨hA, hX, hW, hpos⟩ := Cert.PreRead.of_pre _ _ _ (hpre c)
  exact (kernelValue_eq_referenceValue _ _ _ hA hX hW hpos).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
